-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x3x64x64 : Shape := ⟨4, ![1, 3, 64, 64]⟩
abbrev S_ : Shape := ⟨0, ![]⟩

class Facts : Prop where
  bcast_S_S1x3x64x64 : S_.BroadcastsInDim S1x3x64x64 (![] : Fin 0 → Fin S1x3x64x64.rank)
  reducesTo_S1x3x64x64_S_d0_1_2_3 : S1x3x64x64.ReducesTo [0, 1, 2, 3] S_
  h_S_ : 0 < S_.numel

variable [Facts]

def fn {F : FTy → Type} [FloatOps F] (main_arg0 : FVec F S1x3x64x64 .f32) (main_arg1 : FVec F S1x3x64x64 .f32) : IVec S_ 1 :=
  let main_v0 : FVec F S1x3x64x64 .f32 := Host.absf main_arg0
  let main_cst : FVec F S_ .f32 := constant S_ .f32 0x7F800000#32
  let main_v1 : FVec F S1x3x64x64 .f32 := broadcastInDim S1x3x64x64 ![] bcast_S_S1x3x64x64 main_cst
  let main_v2 : IVec S1x3x64x64 1 := cmpf .olt main_v0 main_v1
  let main_c : IVec S_ 1 := constantI S_ 1 1#1
  let main_v3 : IVec S_ 1 := (fun x v => Host.reduce IntOp.andi x v reducesTo_S1x3x64x64_S_d0_1_2_3 h_S_) main_v2 main_c
  let main_v4 : FVec F S1x3x64x64 .f32 := Host.absf main_arg1
  let main_cst_0 : FVec F S_ .f32 := constant S_ .f32 0x7F800000#32
  let main_v5 : FVec F S1x3x64x64 .f32 := broadcastInDim S1x3x64x64 ![] bcast_S_S1x3x64x64 main_cst_0
  let main_v6 : IVec S1x3x64x64 1 := cmpf .olt main_v4 main_v5
  let main_c_1 : IVec S_ 1 := constantI S_ 1 1#1
  let main_v7 : IVec S_ 1 := (fun x v => Host.reduce IntOp.andi x v reducesTo_S1x3x64x64_S_d0_1_2_3 h_S_) main_v6 main_c_1
  let main_v8 : IVec S_ 1 := andi main_v3 main_v7
  main_v8
-- ==== Kernel.lean ====
abbrev S1x3x64x64 : Shape := ⟨4, ![1, 3, 64, 64]⟩
abbrev S1x3x4096 : Shape := ⟨3, ![1, 3, 4096]⟩
abbrev S1x4096x3 : Shape := ⟨3, ![1, 4096, 3]⟩
abbrev S4096x3 : Shape := ⟨2, ![4096, 3]⟩
abbrev S4096x1 : Shape := ⟨2, ![4096, 1]⟩
abbrev S512x3 : Shape := ⟨2, ![512, 3]⟩
abbrev S512x1 : Shape := ⟨2, ![512, 1]⟩
abbrev S512x512 : Shape := ⟨2, ![512, 512]⟩
abbrev S1x512 : Shape := ⟨2, ![1, 512]⟩
abbrev S512 : Shape := ⟨1, ![512]⟩
abbrev S4096 : Shape := ⟨1, ![4096]⟩
abbrev S_ : Shape := ⟨0, ![]⟩

abbrev nBuf : Space → Nat
  | .hbm => 14
  | .vmem => 11
  | .smem => 0
  | _ => 0

abbrev bufTy : (tb : Table) → Fin (tcTables nBuf tb) → BufTy
  | .hbm, ⟨0, _⟩ => ⟨S1x3x64x64, .f32⟩
  | .hbm, ⟨1, _⟩ => ⟨S1x3x64x64, .f32⟩
  | .hbm, ⟨2, _⟩ => ⟨S1x3x4096, .f32⟩
  | .hbm, ⟨3, _⟩ => ⟨S1x4096x3, .f32⟩
  | .hbm, ⟨4, _⟩ => ⟨S4096x3, .f32⟩
  | .hbm, ⟨5, _⟩ => ⟨S1x3x4096, .f32⟩
  | .hbm, ⟨6, _⟩ => ⟨S1x4096x3, .f32⟩
  | .hbm, ⟨7, _⟩ => ⟨S4096x3, .f32⟩
  | .hbm, ⟨8, _⟩ => ⟨S4096x1, .f32⟩
  | .hbm, ⟨9, _⟩ => ⟨S4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S512x3, .f32⟩
  | .local _ .vmem, ⟨1, _⟩ => ⟨S512x3, .f32⟩
  | .local _ .vmem, ⟨2, _⟩ => ⟨S512x3, .f32⟩
  | .local _ .vmem, ⟨3, _⟩ => ⟨S512x3, .f32⟩
  | .local _ .vmem, ⟨4, _⟩ => ⟨S512x3, .f32⟩
  | .local _ .vmem, ⟨5, _⟩ => ⟨S512x3, .f32⟩
  | .local _ .vmem, ⟨6, _⟩ => ⟨S512x3, .f32⟩
  | .local _ .vmem, ⟨7, _⟩ => ⟨S512x3, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | _, _ => ⟨S1x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v97 : BitVec 1 := Scalar.cmpi .eq arg1 c7_i32
  let v98 : BitVec 32 := Scalar.extui v97
  let c0_i32_27 : BitVec 32 := 0#32
  let v99 : BitVec 1 := Scalar.cmpi .ne v98 c0_i32_27
  v99

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1x3x64x64_S1x3x4096 : S1x3x64x64.ShapeCasts S1x3x4096
  transposes_S1x3x4096_S1x4096x3_0_2_1 : S1x3x4096.Transposes [0, 2, 1] S1x4096x3
  shapeCasts_S1x4096x3_S4096x3 : S1x4096x3.ShapeCasts S4096x3
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x3_S512x3_0_0 : ∀ a, (![0, 0] : Fin 2 → Nat) a + S512x3.size a ≤ S512x3.size a
  h_S512x3 : 0 < S512x3.numel
  shapeCasts_S512x3_S512x3 : S512x3.ShapeCasts S512x3
  slices_S512x3_o0_0_S512x1 : S512x3.Slices ![0, 0] S512x1
  transposes_S512x1_p1_0_S1x512 : S512x1.Transposes [1, 0] S1x512
  broadcasts_S512x1_S512x512 : S512x1.Broadcasts S512x512
  broadcasts_S1x512_S512x512 : S1x512.Broadcasts S512x512
  slices_S512x3_o0_1_S512x1 : S512x3.Slices ![0, 1] S512x1
  slices_S512x3_o0_2_S512x1 : S512x3.Slices ![0, 2] S512x1
  reduces_S512x512_S512 : S512x512.Reduces [1] S512
  shapeCasts_S512_S512x1 : S512.ShapeCasts S512x1
  shapeCasts_S4096x1_S4096 : S4096x1.ShapeCasts S4096
  reducesTo_S4096_S_d0 : S4096.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S4096x3.size a
  hwx0_0 : ∀ i : grid0.Coords, EltTy.bits .f32 = 32 ∨ (Rect.block (s := S4096x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3.size a ≤ S4096x3.size a
  hwx0_1 : ∀ i : grid0.Coords, EltTy.bits .f32 = 32 ∨ (Rect.block (s := S4096x3) S512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3.size a ≤ S4096x3.size a
  hwx0_2 : ∀ i : grid0.Coords, EltTy.bits .f32 = 32 ∨ (Rect.block (s := S4096x3) S512x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3.size a ≤ S4096x3.size a
  hwx0_3 : ∀ i : grid0.Coords, EltTy.bits .f32 = 32 ∨ (Rect.block (s := S4096x3) S512x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)

variable [Facts₀]

abbrev win0_0 : Pipeline.Window sig grid0 :=
  Pipeline.Window.ofSpec (Memref.whole main_v2) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1x3x64x64 : Shape := ⟨4, ![1, 3, 64, 64]⟩
abbrev S1x3x4096 : Shape := ⟨3, ![1, 3, 4096]⟩
abbrev S1x4096x3 : Shape := ⟨3, ![1, 4096, 3]⟩
abbrev S1x4096x1x3 : Shape := ⟨4, ![1, 4096, 1, 3]⟩
abbrev S1x1x4096x3 : Shape := ⟨4, ![1, 1, 4096, 3]⟩
abbrev S1x4096x4096x3 : Shape := ⟨4, ![1, 4096, 4096, 3]⟩
abbrev S_ : Shape := ⟨0, ![]⟩
abbrev S1x4096x4096 : Shape := ⟨3, ![1, 4096, 4096]⟩
abbrev S1x4096 : Shape := ⟨2, ![1, 4096]⟩
abbrev S1 : Shape := ⟨1, ![1]⟩

abbrev nBuf : Space → Nat
  | .hbm => 78
  | .vmem => 0
  | .smem => 0
  | _ => 0

abbrev bufTy : (tb : Table) → Fin (tcTables nBuf tb) → BufTy
  | .hbm, ⟨0, _⟩ => ⟨S1x3x64x64, .f32⟩
  | .hbm, ⟨1, _⟩ => ⟨S1x3x64x64, .f32⟩
  | .hbm, ⟨2, _⟩ => ⟨S1x3x4096, .f32⟩
  | .hbm, ⟨3, _⟩ => ⟨S1x4096x3, .f32⟩
  | .hbm, ⟨4, _⟩ => ⟨S1x3x4096, .f32⟩
  | .hbm, ⟨5, _⟩ => ⟨S1x4096x3, .f32⟩
  | .hbm, ⟨6, _⟩ => ⟨S1x4096x1x3, .f32⟩
  | .hbm, ⟨7, _⟩ => ⟨S1x1x4096x3, .f32⟩
  | .hbm, ⟨8, _⟩ => ⟨S1x4096x4096x3, .f32⟩
  | .hbm, ⟨9, _⟩ => ⟨S1x4096x4096x3, .f32⟩
  | .hbm, ⟨10, _⟩ => ⟨S1x4096x4096x3, .f32⟩
  | .hbm, ⟨11, _⟩ => ⟨S1x4096x4096x3, .f32⟩
  | .hbm, ⟨12, _⟩ => ⟨S_, .f32⟩
  | .hbm, ⟨13, _⟩ => ⟨S1x4096x4096, .f32⟩
  | .hbm, ⟨14, _⟩ => ⟨S_, .f32⟩
  | .hbm, ⟨15, _⟩ => ⟨S1x4096x4096, .f32⟩
  | .hbm, ⟨16, _⟩ => ⟨S1x4096x4096, .i1⟩
  | .hbm, ⟨17, _⟩ => ⟨S_, .f32⟩
  | .hbm, ⟨18, _⟩ => ⟨S_, .f32⟩
  | .hbm, ⟨19, _⟩ => ⟨S1x4096x4096, .f32⟩
  | .hbm, ⟨20, _⟩ => ⟨S1x4096x4096, .f32⟩
  | .hbm, ⟨21, _⟩ => ⟨S1x4096x4096, .f32⟩
  | .hbm, ⟨22, _⟩ => ⟨S_, .f32⟩
  | .hbm, ⟨23, _⟩ => ⟨S_, .f32⟩
  | .hbm, ⟨24, _⟩ => ⟨S1x4096x4096, .f32⟩
  | .hbm, ⟨25, _⟩ => ⟨S1x4096x4096, .f32⟩
  | .hbm, ⟨26, _⟩ => ⟨S1x4096x1x3, .f32⟩
  | .hbm, ⟨27, _⟩ => ⟨S1x1x4096x3, .f32⟩
  | .hbm, ⟨28, _⟩ => ⟨S1x4096x4096x3, .f32⟩
  | .hbm, ⟨29, _⟩ => ⟨S1x4096x4096x3, .f32⟩
  | .hbm, ⟨30, _⟩ => ⟨S1x4096x4096x3, .f32⟩
  | .hbm, ⟨31, _⟩ => ⟨S1x4096x4096x3, .f32⟩
  | .hbm, ⟨32, _⟩ => ⟨S_, .f32⟩
  | .hbm, ⟨33, _⟩ => ⟨S1x4096x4096, .f32⟩
  | .hbm, ⟨34, _⟩ => ⟨S_, .f32⟩
  | .hbm, ⟨35, _⟩ => ⟨S1x4096x4096, .f32⟩
  | .hbm, ⟨36, _⟩ => ⟨S1x4096x4096, .i1⟩
  | .hbm, ⟨37, _⟩ => ⟨S_, .f32⟩
  | .hbm, ⟨38, _⟩ => ⟨S_, .f32⟩
  | .hbm, ⟨39, _⟩ => ⟨S1x4096x4096, .f32⟩
  | .hbm, ⟨40, _⟩ => ⟨S1x4096x4096, .f32⟩
  | .hbm, ⟨41, _⟩ => ⟨S1x4096x4096, .f32⟩
  | .hbm, ⟨42, _⟩ => ⟨S_, .f32⟩
  | .hbm, ⟨43, _⟩ => ⟨S_, .f32⟩
  | .hbm, ⟨44, _⟩ => ⟨S1x4096x4096, .f32⟩
  | .hbm, ⟨45, _⟩ => ⟨S1x4096x4096, .f32⟩
  | .hbm, ⟨46, _⟩ => ⟨S_, .f32⟩
  | .hbm, ⟨47, _⟩ => ⟨S1x4096x4096, .f32⟩
  | .hbm, ⟨48, _⟩ => ⟨S1x4096x4096, .f32⟩
  | .hbm, ⟨49, _⟩ => ⟨S_, .f32⟩
  | .hbm, ⟨50, _⟩ => ⟨S1x4096x4096, .f32⟩
  | .hbm, ⟨51, _⟩ => ⟨S1x4096x4096, .f32⟩
  | .hbm, ⟨52, _⟩ => ⟨S_, .f32⟩
  | .hbm, ⟨53, _⟩ => ⟨S1x4096x4096, .f32⟩
  | .hbm, ⟨54, _⟩ => ⟨S1x4096x4096, .f32⟩
  | .hbm, ⟨55, _⟩ => ⟨S_, .f32⟩
  | .hbm, ⟨56, _⟩ => ⟨S1x4096x4096, .f32⟩
  | .hbm, ⟨57, _⟩ => ⟨S1x4096x4096, .f32⟩
  | .hbm, ⟨58, _⟩ => ⟨S_, .f32⟩
  | .hbm, ⟨59, _⟩ => ⟨S1x4096x4096, .f32⟩
  | .hbm, ⟨60, _⟩ => ⟨S1x4096x4096, .f32⟩
  | .hbm, ⟨61, _⟩ => ⟨S_, .f32⟩
  | .hbm, ⟨62, _⟩ => ⟨S1x4096x4096, .f32⟩
  | .hbm, ⟨63, _⟩ => ⟨S1x4096x4096, .f32⟩
  | .hbm, ⟨64, _⟩ => ⟨S_, .f32⟩
  | .hbm, ⟨65, _⟩ => ⟨S1x4096x4096, .f32⟩
  | .hbm, ⟨66, _⟩ => ⟨S1x4096x4096, .f32⟩
  | .hbm, ⟨67, _⟩ => ⟨S1x4096x4096, .f32⟩
  | .hbm, ⟨68, _⟩ => ⟨S_, .f32⟩
  | .hbm, ⟨69, _⟩ => ⟨S1x4096, .f32⟩
  | .hbm, ⟨70, _⟩ => ⟨S_, .f32⟩
  | .hbm, ⟨71, _⟩ => ⟨S1x4096, .f32⟩
  | .hbm, ⟨72, _⟩ => ⟨S1x4096, .f32⟩
  | .hbm, ⟨73, _⟩ => ⟨S_, .f32⟩
  | .hbm, ⟨74, _⟩ => ⟨S1, .f32⟩
  | .hbm, ⟨75, _⟩ => ⟨S_, .f32⟩
  | .hbm, ⟨76, _⟩ => ⟨S_, .f32⟩
  | .hbm, ⟨77, _⟩ => ⟨S_, .f32⟩
  | _, _ => ⟨S1x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_call2_v0 : Ref sig .tc := ⟨.hbm, 38, rfl⟩
abbrev main_call2_v1 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_call3_v0 : Ref sig .tc := ⟨.hbm, 43, rfl⟩
abbrev main_call3_v1 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_cst_10 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_cst_12 : Ref sig .tc := ⟨.hbm, 61, rfl⟩
abbrev main_v38 : Ref sig .tc := ⟨.hbm, 62, rfl⟩
abbrev main_v39 : Ref sig .tc := ⟨.hbm, 63, rfl⟩
abbrev main_cst_13 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_14 : Ref sig .tc := ⟨.hbm, 68, rfl⟩
abbrev main_v43 : Ref sig .tc := ⟨.hbm, 69, rfl⟩
abbrev main_cst_15 : Ref sig .tc := ⟨.hbm, 70, rfl⟩
abbrev main_v44 : Ref sig .tc := ⟨.hbm, 71, rfl⟩
abbrev main_v45 : Ref sig .tc := ⟨.hbm, 72, rfl⟩
abbrev main_cst_16 : Ref sig .tc := ⟨.hbm, 73, rfl⟩
abbrev main_v46 : Ref sig .tc := ⟨.hbm, 74, rfl⟩
abbrev main_v47 : Ref sig .tc := ⟨.hbm, 75, rfl⟩
abbrev main_cst_17 : Ref sig .tc := ⟨.hbm, 76, rfl⟩
abbrev main_v48 : Ref sig .tc := ⟨.hbm, 77, rfl⟩

abbrev nD : Nat := 1
abbrev τ : Topo := Topo.v7x

variable {F : FTy → Type} [FloatOps F]

class Facts₀ : Prop where
  shapeCasts_S1x3x64x64_S1x3x4096 : S1x3x64x64.ShapeCasts S1x3x4096
  transposes_S1x3x4096_S1x4096x3_0_2_1 : S1x3x4096.Transposes [0, 2, 1] S1x4096x3
  bcast_S1x4096x3_S1x4096x1x3_0_1_3 : S1x4096x3.BroadcastsInDim S1x4096x1x3 (![0, 1, 3] : Fin 3 → Fin S1x4096x1x3.rank)
  bcast_S1x4096x3_S1x1x4096x3_0_2_3 : S1x4096x3.BroadcastsInDim S1x1x4096x3 (![0, 2, 3] : Fin 3 → Fin S1x1x4096x3.rank)
  bcast_S1x4096x1x3_S1x4096x4096x3_0_1_2_3 : S1x4096x1x3.BroadcastsInDim S1x4096x4096x3 (![0, 1, 2, 3] : Fin 4 → Fin S1x4096x4096x3.rank)
  bcast_S1x1x4096x3_S1x4096x4096x3_0_1_2_3 : S1x1x4096x3.BroadcastsInDim S1x4096x4096x3 (![0, 1, 2, 3] : Fin 4 → Fin S1x4096x4096x3.rank)
  reducesTo_S1x4096x4096x3_S1x4096x4096_d3 : S1x4096x4096x3.ReducesTo [3] S1x4096x4096
  h_S_ : 0 < S_.numel
  bcast_S_S1x4096x4096 : S_.BroadcastsInDim S1x4096x4096 (![] : Fin 0 → Fin S1x4096x4096.rank)
  reducesTo_S1x4096x4096_S1x4096_d2 : S1x4096x4096.ReducesTo [2] S1x4096
  bcast_S_S1x4096 : S_.BroadcastsInDim S1x4096 (![] : Fin 0 → Fin S1x4096.rank)
  reducesTo_S1x4096_S1_d1 : S1x4096.ReducesTo [1] S1
  shapeCasts_S1_S_ : S1.ShapeCasts S_

variable [Facts₀]

class Facts : Prop extends Facts₀ where

variable [Facts]
-- ==== Proof.K.Common.lean ====
/-
  What the three runs of the kernel body share, and @main around the region.

  @main is six host operations (the two arguments re-laid as [4096, 3] point lists), the region, and five host
  operations (the [4096, 1] result flattened, summed and scaled).  The region's grid is 8 × 8: point t has row tile
  t / 8 and column tile t % 8.  Windows 0 and 2 read the row tile's points, windows 1 and 3 the column tile's — windows
  0, 1 on one array and 2, 3 on another —, window 4 is the row tile's block of the result, and one scratch buffer
  carries the row sums from column tile to column tile.  The body resets the scratch at column tile 0 and copies it to
  the result's staging buffer at column tile 7; at the other points that buffer is left as found.
-/
import proofs.«163661_j61521111547944_1_alg».proof.Proof.Gen.Kernel.Launch
import proofs.«163661_j61521111547944_1_alg».proof.Proof.Gen.Kernel.Skeleton
import proofs.«163661_j61521111547944_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: the launch contents after the six host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main reduces to the region continued by the five later operations, at the contents after the six earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [hostOps0] from hostOps0_sub)
    (show List.Forall _ [hostOps0] from hostOps0_fresh) main_chain

/-- The later operations touch unscoped TensorCore buffers only. -/
theorem sfx_sub : ∀ ops ∈ ([hostOps1] : List (List (HloOp τ sig (Elt F)))), ∀ op ∈ ops,
    op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched the block index has not moved, and the body leaves the block in place.  One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The condition of the reset (`pl.when(j == 0)`), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the copy-out (`pl.when(j == nj - 1)`). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the copy-out is not taken the result's window is idle and its block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where it is taken the window is live. -/
theorem liveAt0_4 : ∀ t : Fin cfg0.N, cond0_1 (grid0.coords t) → cfg0.idle 4 (grid0.coords t) = false := by decide +kernel

/-! ## The staging and scratch memrefs the body is called with -/

abbrev VO0_4 : View sig .tc .vmem S512x1 .f32 := (Memref.whole cc0_stg4_0 : Memref sig .tc .vmem S512x1 .f32).view
abbrev ms0_0 (t : Fin cfg0.N) : Memref sig .tc .vmem S512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x3 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The scratch operand: a whole scoped buffer of the kernel's own. -/
abbrev scM0_0 : Memref sig .tc .vmem S512x1 .f32 := Memref.whole cc0_scratch0
abbrev VS0_0 : View sig .tc .vmem S512x1 .f32 := scM0_0.view

/-- The class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The kernel body at a point whose column tile is the first: the scratch, at any contents, is reset to zero, read back and stored with this tile's sums added; the result's staging buffer is left as found.
-/
import proofs.«163661_j61521111547944_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's two stores leave in the scratch (the reset, then the update), with the proof that from whole
    memrefs — the four inputs at their blocks, the result's buffer at any contents handed back untouched, the scratch
    at anything — the body runs to the continuation holding the inputs as they were and the scratch with those pieces
    written. -/
noncomputable def kernelRun0_A (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i)
    (x0 x1 x2 x3 : Vec F S512x3 .f32) :
    { LS0 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__pairwise_loss_kernel i arg2 harg2 arg3 harg3 arg4 harg4 arg5 harg5 arg6 harg6 arg7 harg7) K } := by
  refine ⟨?_, fun xi4 E K => ?run⟩
  case run =>
    simp only [cc0__pairwise_loss_kernel_eq_skeleton]; unfold cc0__pairwise_loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunB.lean ====
/-
  The kernel body at a point whose column tile is neither the first nor the last: the scratch, found at the row sums so far, is read and stored back with this tile's sums added; the result's staging buffer is left as found.
-/
import proofs.«163661_j61521111547944_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's one store leaves in the scratch, with the proof that from whole memrefs — the four inputs at
    their blocks, the result's buffer at any contents handed back untouched, the scratch at what the point before
    left — the body runs to the continuation holding the inputs as they were and the scratch with those pieces
    written. -/
noncomputable def kernelRun0_B (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i)
    (x0 x1 x2 x3 : Vec F S512x3 .f32) (xs0 : Vec F S512x1 .f32) :
    { LS0 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__pairwise_loss_kernel i arg2 harg2 arg3 harg3 arg4 harg4 arg5 harg5 arg6 harg6 arg7 harg7) K } := by
  refine ⟨?_, fun xi4 E K => ?run⟩
  case run =>
    simp only [cc0__pairwise_loss_kernel_eq_skeleton]; unfold cc0__pairwise_loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunC.lean ====
/-
  The kernel body at a point whose column tile is the last: the scratch is read and stored back with this tile's sums added, then read once more and stored whole into the result's staging buffer.
-/
import proofs.«163661_j61521111547944_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the result's staging buffer and in the scratch, with the proof that from
    whole memrefs — the four inputs at their blocks, the result's buffer at anything, the scratch at what the point
    before left — the body runs to the continuation holding the inputs as they were and both buffers with their
    pieces written. -/
noncomputable def kernelRun0_C (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 x1 x2 x3 : Vec F S512x3 .f32) (xs0 : Vec F S512x1 .f32) :
    Σ' (L4 : List (View.Piece (Elt F) S512x1 .f32)), { LS0 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__pairwise_loss_kernel i arg2 harg2 arg3 harg3 arg4 harg4 arg5 harg5 arg6 harg6 arg7 harg7) K } := by
  refine ⟨?_, ?_, fun E K => ?run⟩
  case run =>
    simp only [cc0__pairwise_loss_kernel_eq_skeleton]; unfold cc0__pairwise_loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Frame.lean ====
/-
  The frame of the kernel's program, with every array after the run named.

  What the scratch holds after each grid point is stated by recursion on the point (a reset and an update at column
  tile 0, an update over what the point before left elsewhere), and what the result's staging buffer holds at column
  tile 7 is the scratch copied.  These are the pipeline's proof data; the body obligation is the three runs, chosen by
  the point's column tile; the region invariant tracks the scratch between points.  The two point lists are each read
  through two windows, so each of their buffers is held half by one window and half by the other; the launch is the
  shared-array form of the frame run.
-/
import proofs.«163661_j61521111547944_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Contents nothing reads: the result's staging buffer at the points that leave it as found. -/
def junk4 : Vec F S512x1 .f32 := VO0_4.read (Elt F) VO0_4.junk

/-- Case A's two pieces for the scratch cover it. -/
theorem scover0_A (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i)
    (x0 x1 x2 x3 : Vec F S512x3 .f32) (y : S512x1.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S512x1.size (by sl_kernel_rfl) y

/-- What case A leaves in the scratch. -/
def sout0_A (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i)
    (x0 x1 x2 x3 : Vec F S512x3 .f32) : Vec F S512x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).1)

/-- Case B's piece for the scratch covers it. -/
theorem scover0_B (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i)
    (x0 x1 x2 x3 : Vec F S512x3 .f32) (xs0 : Vec F S512x1 .f32) (y : S512x1.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S512x1.size (by sl_kernel_rfl) y

/-- What case B leaves in the scratch. -/
def sout0_B (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i)
    (x0 x1 x2 x3 : Vec F S512x3 .f32) (xs0 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).1)

/-- Case C's piece for the result's staging buffer covers it. -/
theorem cover0_C_4 (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 x1 x2 x3 : Vec F S512x3 .f32) (xs0 : Vec F S512x1 .f32) (y : S512x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S512x1.size (by sl_kernel_rfl) y

/-- What case C leaves in the result's staging buffer. -/
def out0_C_4 (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 x1 x2 x3 : Vec F S512x3 .f32) (xs0 : Vec F S512x1 .f32) : Vec F S512x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's piece for the scratch covers it. -/
theorem scover0_C (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 x1 x2 x3 : Vec F S512x3 .f32) (xs0 : Vec F S512x1 .f32) (y : S512x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S512x1.size (by sl_kernel_rfl) y

/-- What case C leaves in the scratch. -/
def sout0_C (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 x1 x2 x3 : Vec F S512x3 .f32) (xs0 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the result's staging buffer and the scratch hold after each point -/

/-- After the body at position n: (the result's staging buffer, the scratch).  Column tile 0 is case A, column tile 7
    case C over what the point before left in the scratch, the others case B over the same. -/
def outsAt0 (c : Dev nD) : (n : ℕ) → n < cfg0.N → Vec F S512x1 .f32 × Vec F S512x1 .f32
  | 0, hn => (junk4, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (junk4, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (junk4, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a point of case A. -/
theorem outsAt0_A (c : Dev nD) (t : Fin cfg0.N) (h0 : t.val % 8 = 0) (h1 : ¬t.val % 8 = 7) :
    outsAt0 m c t.val t.isLt = (junk4, sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B: over what the point before left. -/
theorem outsAt0_B (c : Dev nD) (t : Fin cfg0.N) (h0 : ¬t.val % 8 = 0) (h1 : ¬t.val % 8 = 7) :
    outsAt0 m c t.val t.isLt = (junk4, sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: over what the point before left. -/
theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: before the first point the scratch at anything; afterwards the scratch at what the point before
    left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core c: the arrays as the region finds them; after the body each input's buffer at its block and
    the result's at `outsAt0`; the invariant `PhiS`; nothing owed; each point list's buffer held half by its row-tile
    window and half by its column-tile window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0_0 t) fullShare (iblk m c 0 t) := by
  rw [← after0_0 m c t]
theorem leaves_in1 (c : Dev nD) (t : Fin cfg0.N) : (dats m 0 c).leavesExact 1 t = owns (c : Thread nD τ) (ms0_1 t) fullShare (iblk m c 1 t) := by
  rw [← after0_1 m c t]
theorem leaves_in2 (c : Dev nD) (t : Fin cfg0.N) : (dats m 0 c).leavesExact 2 t = owns (c : Thread nD τ) (ms0_2 t) fullShare (iblk m c 2 t) := by
  rw [← after0_2 m c t]
theorem leaves_in3 (c : Dev nD) (t : Fin cfg0.N) : (dats m 0 c).leavesExact 3 t = owns (c : Thread nD τ) (ms0_3 t) fullShare (iblk m c 3 t) := by
  rw [← after0_3 m c t]

set_option maxHeartbeats 4800000 in
/-- The body at any point: the inputs' buffers hold their blocks; the column tile says which case the point is in; the
    invariant hands the body the scratch at what the point before left (at anything before the first point) and takes
    it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 64 := lt_of_lt_of_eq t.isLt (show cfg0.N = 64 from N_0)
  by_cases h0 : t.val % 8 = 0
  · have h1 : ¬t.val % 8 = 7 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold sout0_A; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    by_cases h1 : t.val % 8 = 7
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the scratch's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

/-! ## After the region -/

/-- What the five host operations after the region leave in @main's result buffer, as a function of the result's
    array: the [4096, 1] array flattened, summed from zero and scaled by a quarter. -/
def tailOut (o : Vec F S4096x1 .f32) : FVec F S_ .f32 :=
  mulf (constant S_ .f32 0x3E800000#32)
    (Host.reduceAdd (shapeCast S4096 o shapeCasts_S4096x1_S4096) (constant S_ .f32 0x00000000#32) reducesTo_S4096_S_d0 h_S_)

end Cert.Kernel.Hand

end
-- ==== Proof.LibSharedArrayLaunch.lean ====
/-
  A general lemma on the launch of a one-region TensorCore program whose windows may SHARE arrays.

  The frame run of the pipeline library with a tracking invariant and host lines after the region
  (`Pipeline.θ_run_frame_around_track`) asks that the windows' arrays be pairwise distinct buffers, each held at the
  full share.  When one array is handed to the kernel through several input windows, the full share of its buffer is
  dealt among those windows, and how is the certificate's to say.  This theorem is that frame run with the layout facts
  taken one by one (the arrays' distinctness left out) and three entailments in the place of the full-share
  hypothesis: the buffers behind the arrays, whole at the region-entry contents, make the proof data's arrays at
  entry (`hsplit0`); at the region's exit the proof data's arrays make those buffers whole again at an exit valuation
  `WN` (`hjoinN`) and back (`hsplitN`).  The lines after the region run within all the unscoped buffers, held whole at
  `WN`, and write no array.  The post says: every window's array ends at `Dat.arrAt … N`, and every unscoped buffer that
  is no window's array ends at the lines' `StableHlo.after` from `WN`.
-/
import Idealize.ShloMosaic.Lib.Pipeline.FrameSuffix

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

namespace SharedArr

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

omit [Fintype P] [DecidableEq P] [∀ e, Nonempty (Val e)] in
set_option backward.isDefEq.respectTransparency.types false in
/-- The lines after the region of a pipeline whose windows may share arrays: from the region's exit (the boundary, the
    proof data's arrays at `Dat.arrAt … N`, the bypassing buffers at the region-entry contents `V₀`) the lines run
    within all the unscoped buffers, held whole at `WN`, write no array, and hand back the proof data's arrays at
    `Dat.arrAt … N` and the bypassing buffers at the lines' `StableHlo.after` from `WN`. -/
theorem tail_seqs_shared
    (hw : WinFacts₀ (cfg).spec)
    (V₀ : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (WN : Dev nD → Valuation τ sig Val)
    (hWN : ∀ c, ∀ b ∈ restRefs sig (cfg).spec, WN c (Proc.devRef .tc b) = V₀ c (Proc.devRef .tc b))
    (hjoinN : ∀ c, (dats p c).arrays ((dats p c).arrAt · (cfg).N) ⊢ (arrBufs (cfg).spec c (fun b => WN c (Proc.devRef .tc b)) : sProp 𝕄))
    (hsplitN : ∀ c, (arrBufs (cfg).spec c (fun b => WN c (Proc.devRef .tc b)) : sProp 𝕄) ⊢ (dats p c).arrays ((dats p c).arrAt · (cfg).N))
    (c : Dev nD) (Q' : PUnit → sProp 𝕄) :
    iprop((iprop((dats p c).arrays ((dats p c).arrAt · (cfg).N)
              ∗ unscopedRest (cfg).spec c (fun b => StableHlo.after opss.flatten (WN c) (Proc.devRef .tc b))) -∗ Q' ⟨⟩)
        ∗ boundary (c.tc : Thread nD τ) ∗ (dats p c).arrays ((dats p c).arrAt · (cfg).N)
        ∗ unscopedRest (cfg).spec c (fun b => V₀ c (Proc.devRef .tc b)))
      ⊢ wp frame (wpE 𝔻 (Variants.lift 𝒱₀) (c.tc : Thread nD τ) none) Set.univ (chain (opss.map StableHlo.seq)) Q' := by
  classical
  -- the exit holdings are the unscoped buffers held whole at `WN`
  have hE : iprop((dats p c).arrays ((dats p c).arrAt · (cfg).N) ∗ unscopedRest (cfg).spec c (fun b => V₀ c (Proc.devRef .tc b)))
      ⊢ (StableHlo.held (c.tc : Thread nD τ) (ucRefs τ sig) (WN c) : sProp 𝕄) := by
    rw [← unscopedBufs_held (Ix := Unit) (Name := ℕ) (U := UR sig nD τ) (Lvl := ℕ) c (WN c),
      unscopedBufs_split₀ cfgs p hw.arr_unscoped c]
    have hr : (unscopedRest (cfg).spec c (fun b => V₀ c (Proc.devRef .tc b)) : sProp 𝕄)
        = unscopedRest (cfg).spec c (fun b => WN c (Proc.devRef .tc b)) := by
      unfold unscopedRest
      exact bigSep_congr fun b hb => by beta_reduce; rw [hWN c b hb]
    rw [hr]
    exact sep_mono (hjoinN c) .rfl
  -- after the lines they split again; no line wrote an array
  have hL : (StableHlo.held (c.tc : Thread nD τ) (ucRefs τ sig) (StableHlo.after opss.flatten (WN c)) : sProp 𝕄)
      ⊢ iprop((dats p c).arrays ((dats p c).arrAt · (cfg).N)
          ∗ unscopedRest (cfg).spec c (fun b => StableHlo.after opss.flatten (WN c) (Proc.devRef .tc b))) := by
    rw [← unscopedBufs_held (Ix := Unit) (Name := ℕ) (U := UR sig nD τ) (Lvl := ℕ) c (StableHlo.after opss.flatten (WN c)),
      unscopedBufs_split₀ cfgs p hw.arr_unscoped c]
    have ha : (arrBufs (cfg).spec c (fun b => StableHlo.after opss.flatten (WN c) (Proc.devRef .tc b)) : sProp 𝕄)
        = arrBufs (cfg).spec c (fun b => WN c (Proc.devRef .tc b)) := by
      unfold arrBufs
      exact bigSep_congr fun b hb => by
        obtain ⟨w, -, rfl⟩ := Finset.mem_image.mp hb
        beta_reduce
        rw [StableHlo.after_of_forall_not_mem _ _ fun op hop => ?_]
        obtain ⟨ops, hops, hop⟩ := List.mem_flatten.mp hop
        exact hkeep ops hops op hop w
    rw [ha]
    exact sep_mono (hsplitN c) .rfl
  rw [← List.append_nil (opss.map StableHlo.seq)]
  iintro ⟨Hk, Hb, HA, HZ⟩
  ihave HH := hE $$ [HA HZ]
  · isplitl [HA] <;> iassumption
  iapply (wp_seqs_then (fun q => (cfgs q).toPCfg (Val := Val)) defs₀ 𝒱₀ c (ucRefs τ sig) [] opss hsub hfresh (WN c)) $$ [Hb HH]
  · isplitl [Hb] <;> iassumption
  iintro ⟨-, HH⟩
  rw [chain_nil, wp_pure]
  imodintro
  iapply Hk
  iapply hL
  iexact HH

/-- The frame run, with a tracking invariant and host lines after the region, of a pipeline whose windows may share
    arrays. -/
theorem θ_run_frame_around_track_shared
    (hinj : Function.Injective (cellOf (nD := nD) (τ := τ) cfgs))
    (hw : WinFacts₀ (cfg).spec)
    (block_pos : ∀ w : Fin (cfg).W, 0 < ((cfg).spec w).block.numel)
    (arr_whole : ∀ w : Fin (cfg).W, ((cfg).spec w).arr.IsWhole)
    (stage_whole : ∀ (w : Fin (cfg).W) (s : Fin ((cfg).spec w).nbuf), (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (WN : Dev nD → Valuation τ sig Val)
    (hWN : ∀ c, ∀ b ∈ restRefs sig (cfg).spec, WN c (Proc.devRef .tc b) = V₀ c (Proc.devRef .tc b))
    (hsplit0 : ∀ c, (arrBufs (cfg).spec c (fun b => V₀ c (Proc.devRef .tc b)) : sProp 𝕄) ⊢ (dats p c).arrays ((dats p c).arrAt · 0))
    (hjoinN : ∀ c, (dats p c).arrays ((dats p c).arrAt · (cfg).N) ⊢ (arrBufs (cfg).spec c (fun b => WN c (Proc.devRef .tc b)) : sProp 𝕄))
    (hsplitN : ∀ c, (arrBufs (cfg).spec c (fun b => WN c (Proc.devRef .tc b)) : sProp 𝕄) ⊢ (dats p c).arrays ((dats p c).arrAt · (cfg).N))
    (hin : ∀ c, ΦA (cfg).spec c ⊢ (dats p c).Φ 0) (hout : ∀ c, (dats p c).Φ (Fin.last (cfg).N) ⊢ ΦA (cfg).spec c) :
    θ_run 𝔻 (onTc main) (s₀ m g) (fun r => ∀ c : Dev nD,
      (∀ w, r.2.mem (((cfg).spec w).arr.view.loc (c.tc : Thread nD τ)) = (dats p c).arrAt w (cfg).N)
      ∧ ∀ b ∈ restRefs sig (cfg).spec, r.2.mem ((c.tc : Thread nD τ).loc b) = StableHlo.after opss.flatten (WN c) (Proc.devRef .tc b)) := by
  classical
  exact θ_run_region_pf_tail (fun q => (cfgs q).toPCfg (Val := Val)) (fun q => (cfgs q).toPCfg_adm) dats () hinj p hw
    (OwnSemFacts.none (cfg).spec) (PreFacts.none _) emb₁ defs₀ 𝒱₀ m g main
    (fun _ => chain (opss.map StableHlo.seq)) hbody
    block_pos arr_whole stage_whole howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit0)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c
      (fun b => StableHlo.after opss.flatten (WN c) (Proc.devRef .tc b)))
    (hX := fun c => by
      rw [unscopedRestP_none]
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => tail_seqs_shared cfgs dats p defs₀ 𝒱₀ hw V₀ opss hsub hfresh hkeep WN hWN hjoinN hsplitN c Q')
    (QY := fun c s => ∀ b ∈ restRefs sig (cfg).spec,
      s.mem ((c.tc : Thread nD τ).loc b) = StableHlo.after opss.flatten (WN c) (Proc.devRef .tc b))
    (hY := fun c s' => by
      iintro ⟨-, HU, HSI⟩
      unfold unscopedRest
      imodintro
      iapply (pointsTo_read_all (restRefs sig (cfg).spec) (fun b => (c.tc : Thread nD τ).loc b)
        (fun b => StableHlo.after opss.flatten (WN c) (Proc.devRef .tc b)) s')
      isplitl [HU] <;> iassumption)
    (hQ := fun s h c => ⟨(h c).1, (h c).2.2⟩)

end SharedArr

end Pipeline

end Idealize.ShloMosaic

end
-- ==== Proof.K.Launch.lean ====
/-
  The launch: the region's arrays dealt among its windows, and the run of @main with every result named.

  Windows 0 and 1 read the first point list's buffer and windows 2 and 3 the second's: each buffer's full share is
  split in its two halves, one for the row-tile window and one for the column-tile window, and joined again at the
  region's exit (an input array is never written, so both halves hold the entry contents).  The result's buffer is
  window 4's alone.  After the region the five host operations read the result's array and write buffers no window
  stages; what they leave in @main's result buffer is a function of the result's array alone.
-/
import proofs.«163661_j61521111547944_1_alg».proof.Proof.K.Frame
import proofs.«163661_j61521111547944_1_alg».proof.Proof.LibSharedArrayLaunch
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' shares -/

/-- The same for any proof data that hold each point list's buffer half by its row-tile window and half by its
    column-tile window. -/
theorem arrays_iff_of (c : Dev nD) (dat : Dat τ (Elt F) Unit ℕ (UR sig nD τ) ℕ cfg0 c)
    (hq0 : dat.q 0 = fullShare.left) (hq1 : dat.q 1 = fullShare.right)
    (hq2 : dat.q 2 = fullShare.left) (hq3 : dat.q 3 = fullShare.right)
    (Vv : (b : Ref sig .tc) → Buf (Elt F) ((c : Thread nD τ).loc b))
    (Fw : (w : Fin cfg0.W) → Buf (Elt F) ((cfg0.win w).arr.view.loc (c : Thread nD τ)))
    (hF : ∀ w, Fw w = Vv (Pipeline.arrRef spec0 w)) :
    (Pipeline.arrBufs spec0 c Vv : sProp 𝕄) ⊣⊢ dat.arrays Fw := by
  classical
  -- the shares, window by window
  have s0 : dat.share 0 = fullShare.left := (if_neg (show ¬ (cfg0.win 0).isOut = true by decide)).trans hq0
  have s1 : dat.share 1 = fullShare.right := (if_neg (show ¬ (cfg0.win 1).isOut = true by decide)).trans hq1
  have s2 : dat.share 2 = fullShare.left := (if_neg (show ¬ (cfg0.win 2).isOut = true by decide)).trans hq2
  have s3 : dat.share 3 = fullShare.right := (if_neg (show ¬ (cfg0.win 3).isOut = true by decide)).trans hq3
  have s4 : dat.share 4 = fullShare := if_pos (show (cfg0.win 4).isOut = true by decide)
  unfold Pipeline.arrBufs Dat.arrays
  rw [bigSep_eq_bigSepL_of_eq [main_v2, main_v5, main_v6] (by decide) (by decide), bigSep_W0]
  simp only [bigSepL_cons_cons, bigSepL_singleton]
  rw [s0, s1, s2, s3, s4, hF 0, hF 1, hF 2, hF 3, hF 4]
  simp only [View.set_whole]
  show iprop(((c : Thread nD τ).loc main_v2 ↦{fullShare} Vv main_v2) ∗ ((c : Thread nD τ).loc main_v5 ↦{fullShare} Vv main_v5)
        ∗ ((c : Thread nD τ).loc main_v6 ↦{fullShare} Vv main_v6))
      ⊣⊢ (iprop(((c : Thread nD τ).loc main_v2 ↦{fullShare.left} Vv main_v2) ∗ ((c : Thread nD τ).loc main_v2 ↦{fullShare.right} Vv main_v2)
        ∗ ((c : Thread nD τ).loc main_v5 ↦{fullShare.left} Vv main_v5) ∗ ((c : Thread nD τ).loc main_v5 ↦{fullShare.right} Vv main_v5)
        ∗ ((c : Thread nD τ).loc main_v6 ↦{fullShare} Vv main_v6)) : sProp 𝕄)
  -- a whole buffer at the full share is its two halves
  have h2 := pointsTo_share (Ix := Unit) (Name := ℕ) (U := UR sig nD τ) (Lvl := ℕ) (ℓ := (c : Thread nD τ).loc main_v2)
    (I := Finset.univ) (f := Vv main_v2) (PosShare.mem_left_op_right fullShare)
  have h5 := pointsTo_share (Ix := Unit) (Name := ℕ) (U := UR sig nD τ) (Lvl := ℕ) (ℓ := (c : Thread nD τ).loc main_v5)
    (I := Finset.univ) (f := Vv main_v5) (PosShare.mem_left_op_right fullShare)
  refine ⟨?_, ?_⟩
  · refine (BIClass.sep_mono h2.1 (BIClass.sep_mono h5.1 .rfl)).trans ?_
    iintro ⟨⟨A, B⟩, ⟨C, D⟩, H6⟩
    isplitl [A]; · iexact A
    isplitl [B]; · iexact B
    isplitl [C]; · iexact C
    isplitl [D]; · iexact D
    iexact H6
  · iintro ⟨A, B, C, D, H6⟩
    isplitl [A B]
    · iapply h2.2; isplitl [A] <;> iassumption
    isplitl [C D]
    · iapply h5.2; isplitl [C] <;> iassumption
    iexact H6

/-- The buffers behind the windows' arrays, whole at contents Vv, are the proof data's arrays at the same contents
    window by window: each point list's buffer as its two halves. -/
theorem arrays_iff (c : Dev nD) (Vv : (b : Ref sig .tc) → Buf (Elt F) ((c : Thread nD τ).loc b))
    (Fw : (w : Fin cfg0.W) → Buf (Elt F) ((cfg0.win w).arr.view.loc (c : Thread nD τ)))
    (hF : ∀ w, Fw w = Vv (Pipeline.arrRef spec0 w)) :
    (Pipeline.arrBufs spec0 c Vv : sProp 𝕄) ⊣⊢ (dats m 0 c).arrays Fw :=
  arrays_iff_of c (dats m 0 c) rfl rfl rfl rfl Vv Fw hF

/-! ## The exit contents and the run -/

/-- Core c's buffer contents at the region's exit: the entry contents with the result's array at what the write-backs
    leave in it. -/
def WN (c : Dev nD) : Valuation τ sig (Elt F) :=
  Function.update (V0 m c) (Proc.devRef .tc main_v6) ((dats m 0 c).arrAt 4 cfg0.N)

/-- The exit contents at the result's array. -/
theorem WN_v6 (c : Dev nD) : WN m c (Proc.devRef .tc main_v6) = (dats m 0 c).arrAt 4 cfg0.N :=
  Function.update_self _ _ _

/-- The exit contents at any other buffer are the entry contents. -/
theorem WN_of_ne (c : Dev nD) (b : Ref sig .tc) (hb : b ≠ main_v6) :
    WN m c (Proc.devRef .tc b) = V0 m c (Proc.devRef .tc b) :=
  Function.update_of_ne (fun h => hb (Proc.devRef_injective _ h)) _ _

/-- A buffer that bypasses the region is not the result's array. -/
theorem hWN (c : Dev nD) : ∀ b ∈ Pipeline.restRefs sig spec0, WN m c (Proc.devRef .tc b) = V0 m c (Proc.devRef .tc b) :=
  fun b hb => WN_of_ne m c b fun h =>
    (Finset.mem_sdiff.mp hb).2 (Finset.mem_image.mpr ⟨4, Finset.mem_univ _, h.symm⟩)

/-- Every window's array at the region's exit is the exit contents at its buffer: an input array is never written. -/
theorem arrAtN_eq (c : Dev nD) (w : Fin cfg0.W) :
    (dats m 0 c).arrAt w cfg0.N = WN m c (Proc.devRef .tc (Pipeline.arrRef spec0 w)) := by
  fin_cases w
  · exact ((dats m 0 c).arrAt_in 0 rfl _).trans ((A_eq m c 0).trans (WN_of_ne m c _ (by decide)).symm)
  · exact ((dats m 0 c).arrAt_in 1 rfl _).trans ((A_eq m c 1).trans (WN_of_ne m c _ (by decide)).symm)
  · exact ((dats m 0 c).arrAt_in 2 rfl _).trans ((A_eq m c 2).trans (WN_of_ne m c _ (by decide)).symm)
  · exact ((dats m 0 c).arrAt_in 3 rfl _).trans ((A_eq m c 3).trans (WN_of_ne m c _ (by decide)).symm)
  · exact (WN_v6 m c).symm

/-- What the five later operations leave in @main's result buffer, from any contents. -/
theorem after_v9 (W : Valuation τ sig (Elt F)) :
    StableHlo.after (List.flatten [hostOps1]) W (Proc.devRef .tc main_v9) = tailOut (W (Proc.devRef .tc main_v6)) := by
  show StableHlo.after hostOps1 W (Proc.devRef .tc main_v9) = _
  after_results
  rfl

/-- They write neither argument. -/
theorem after_arg0 (W : Valuation τ sig (Elt F)) :
    StableHlo.after (List.flatten [hostOps1]) W (Proc.devRef .tc main_arg0) = W (Proc.devRef .tc main_arg0) := by
  show StableHlo.after hostOps1 W (Proc.devRef .tc main_arg0) = _
  after_results

theorem after_arg1 (W : Valuation τ sig (Elt F)) :
    StableHlo.after (List.flatten [hostOps1]) W (Proc.devRef .tc main_arg1) = W (Proc.devRef .tc main_arg1) := by
  show StableHlo.after hostOps1 W (Proc.devRef .tc main_arg1) = _
  after_results

/-- Nor do the six earlier ones. -/
theorem V0_arg0 (c : Dev nD) : V0 m c (Proc.devRef .tc main_arg0) = m ((c.tc : Thread nD τ).loc main_arg0) := by
  show StableHlo.after hostOps0 (fun b => m (c, b)) (Proc.devRef .tc main_arg0) = _
  after_results

theorem V0_arg1 (c : Dev nD) : V0 m c (Proc.devRef .tc main_arg1) = m ((c.tc : Thread nD τ).loc main_arg1) := by
  show StableHlo.after hostOps0 (fun b => m (c, b)) (Proc.devRef .tc main_arg1) = _
  after_results

theorem v9_rest : main_v9 ∈ Pipeline.restRefs sig spec0 := Pipeline.mem_restRefs_of main_v9 rfl (by decide)
theorem arg0_rest : main_arg0 ∈ Pipeline.restRefs sig spec0 := Pipeline.mem_restRefs_of main_arg0 rfl (by decide)
theorem arg1_rest : main_arg1 ∈ Pipeline.restRefs sig spec0 := Pipeline.mem_restRefs_of main_arg1 rfl (by decide)

set_option backward.isDefEq.respectTransparency.types false in
/-- THE RUN.  Every weakly fair execution of @main terminates without a fault; @main's result buffer ends at
    `tailOut` of the result's array as the write-backs leave it, and the two arguments end as launched. -/
theorem run_main : θ_run defs (onTc (τ := τ) (main (F := F))) ⟨m, fun _ => 0, ρ⟩ (fun r => ∀ c : Dev nD,
      r.2.mem ((c.tc : Thread nD τ).loc main_v9) = tailOut ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun r h c => ⟨
      ((h c).2 main_v9 v9_rest).trans ((after_v9 (WN m c)).trans (congrArg tailOut (WN_v6 m c))),
      ((h c).2 main_arg0 arg0_rest).trans ((after_arg0 (WN m c)).trans ((WN_of_ne m c main_arg0 (by decide)).trans (V0_arg0 m c))),
      ((h c).2 main_arg1 arg1_rest).trans ((after_arg1 (WN m c)).trans ((WN_of_ne m c main_arg1 (by decide)).trans (V0_arg1 m c)))⟩)
    (Pipeline.SharedArr.θ_run_frame_around_track_shared cfgs (dats m) (0 : Fin 1) defs₀ Variants.none cellOf_inj winFacts₀0
      block_pos0 arr_whole0 stage_whole0 m ρ main
      (hbody := fun c => (body_obligation m c).loose) (howed := fun _ _ => rfl) (V₀ := V0 m) (opss := [hostOps1])
      sfx_sub sfx_fresh sfx_keeps (hmain m Variants.none) (WN := WN m) (hWN m)
      (fun c => (arrays_iff m c (V m c) _ (A_eq m c)).1)
      (fun c => (arrays_iff m c (fun b => WN m c (Proc.devRef .tc b)) _ (arrAtN_eq m c)).2)
      (fun c => (arrays_iff m c (fun b => WN m c (Proc.devRef .tc b)) _ (arrAtN_eq m c)).1)
      (hin m) (hout m))

end Cert.Kernel.Hand

end
-- ==== Proof.KI.Common.lean ====
/-
  What the three runs of the kernel body share, and @main around the region.

  @main is six host operations (the two arguments re-laid as [4096, 3] point lists), the region, and five host
  operations (the [4096, 1] result flattened, summed and scaled).  The region's grid is 8 × 8: point t has row tile
  t / 8 and column tile t % 8.  Windows 0 and 2 read the row tile's points, windows 1 and 3 the column tile's — windows
  0, 1 on one array and 2, 3 on another —, window 4 is the row tile's block of the result, and one scratch buffer
  carries the row sums from column tile to column tile.  The body resets the scratch at column tile 0 and copies it to
  the result's staging buffer at column tile 7; at the other points that buffer is left as found.
-/
import proofs.«163661_j61521111547944_1_alg».proof.Proof.Gen.KernelIdeal.Launch
import proofs.«163661_j61521111547944_1_alg».proof.Proof.Gen.KernelIdeal.Skeleton
import proofs.«163661_j61521111547944_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: the launch contents after the six host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main reduces to the region continued by the five later operations, at the contents after the six earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [hostOps0] from hostOps0_sub)
    (show List.Forall _ [hostOps0] from hostOps0_fresh) main_chain

/-- The later operations touch unscoped TensorCore buffers only. -/
theorem sfx_sub : ∀ ops ∈ ([hostOps1] : List (List (HloOp τ sig (Elt F)))), ∀ op ∈ ops,
    op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched the block index has not moved, and the body leaves the block in place.  One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The condition of the reset (`pl.when(j == 0)`), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the copy-out (`pl.when(j == nj - 1)`). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the copy-out is not taken the result's window is idle and its block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where it is taken the window is live. -/
theorem liveAt0_4 : ∀ t : Fin cfg0.N, cond0_1 (grid0.coords t) → cfg0.idle 4 (grid0.coords t) = false := by decide +kernel

/-! ## The staging and scratch memrefs the body is called with -/

abbrev VO0_4 : View sig .tc .vmem S512x1 .f32 := (Memref.whole cc0_stg4_0 : Memref sig .tc .vmem S512x1 .f32).view
abbrev ms0_0 (t : Fin cfg0.N) : Memref sig .tc .vmem S512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x3 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The scratch operand: a whole scoped buffer of the kernel's own. -/
abbrev scM0_0 : Memref sig .tc .vmem S512x1 .f32 := Memref.whole cc0_scratch0
abbrev VS0_0 : View sig .tc .vmem S512x1 .f32 := scM0_0.view

/-- The class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The kernel body at a point whose column tile is the first: the scratch, at any contents, is reset to zero, read back and stored with this tile's sums added; the result's staging buffer is left as found.
-/
import proofs.«163661_j61521111547944_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's two stores leave in the scratch (the reset, then the update), with the proof that from whole
    memrefs — the four inputs at their blocks, the result's buffer at any contents handed back untouched, the scratch
    at anything — the body runs to the continuation holding the inputs as they were and the scratch with those pieces
    written. -/
noncomputable def kernelRun0_A (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i)
    (x0 x1 x2 x3 : Vec F S512x3 .f32) :
    { LS0 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__pairwise_loss_kernel i arg2 harg2 arg3 harg3 arg4 harg4 arg5 harg5 arg6 harg6 arg7 harg7) K } := by
  refine ⟨?_, fun xi4 E K => ?run⟩
  case run =>
    simp only [cc0__pairwise_loss_kernel_eq_skeleton]; unfold cc0__pairwise_loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunB.lean ====
/-
  The kernel body at a point whose column tile is neither the first nor the last: the scratch, found at the row sums so far, is read and stored back with this tile's sums added; the result's staging buffer is left as found.
-/
import proofs.«163661_j61521111547944_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's one store leaves in the scratch, with the proof that from whole memrefs — the four inputs at
    their blocks, the result's buffer at any contents handed back untouched, the scratch at what the point before
    left — the body runs to the continuation holding the inputs as they were and the scratch with those pieces
    written. -/
noncomputable def kernelRun0_B (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i)
    (x0 x1 x2 x3 : Vec F S512x3 .f32) (xs0 : Vec F S512x1 .f32) :
    { LS0 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__pairwise_loss_kernel i arg2 harg2 arg3 harg3 arg4 harg4 arg5 harg5 arg6 harg6 arg7 harg7) K } := by
  refine ⟨?_, fun xi4 E K => ?run⟩
  case run =>
    simp only [cc0__pairwise_loss_kernel_eq_skeleton]; unfold cc0__pairwise_loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunC.lean ====
/-
  The kernel body at a point whose column tile is the last: the scratch is read and stored back with this tile's sums added, then read once more and stored whole into the result's staging buffer.
-/
import proofs.«163661_j61521111547944_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the result's staging buffer and in the scratch, with the proof that from
    whole memrefs — the four inputs at their blocks, the result's buffer at anything, the scratch at what the point
    before left — the body runs to the continuation holding the inputs as they were and both buffers with their
    pieces written. -/
noncomputable def kernelRun0_C (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 x1 x2 x3 : Vec F S512x3 .f32) (xs0 : Vec F S512x1 .f32) :
    Σ' (L4 : List (View.Piece (Elt F) S512x1 .f32)), { LS0 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__pairwise_loss_kernel i arg2 harg2 arg3 harg3 arg4 harg4 arg5 harg5 arg6 harg6 arg7 harg7) K } := by
  refine ⟨?_, ?_, fun E K => ?run⟩
  case run =>
    simp only [cc0__pairwise_loss_kernel_eq_skeleton]; unfold cc0__pairwise_loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Frame.lean ====
/-
  The frame of the kernel's program, with every array after the run named.

  What the scratch holds after each grid point is stated by recursion on the point (a reset and an update at column
  tile 0, an update over what the point before left elsewhere), and what the result's staging buffer holds at column
  tile 7 is the scratch copied.  These are the pipeline's proof data; the body obligation is the three runs, chosen by
  the point's column tile; the region invariant tracks the scratch between points.  The two point lists are each read
  through two windows, so each of their buffers is held half by one window and half by the other; the launch is the
  shared-array form of the frame run.
-/
import proofs.«163661_j61521111547944_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Contents nothing reads: the result's staging buffer at the points that leave it as found. -/
def junk4 : Vec F S512x1 .f32 := VO0_4.read (Elt F) VO0_4.junk

/-- Case A's two pieces for the scratch cover it. -/
theorem scover0_A (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i)
    (x0 x1 x2 x3 : Vec F S512x3 .f32) (y : S512x1.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S512x1.size (by sl_kernel_rfl) y

/-- What case A leaves in the scratch. -/
def sout0_A (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i)
    (x0 x1 x2 x3 : Vec F S512x3 .f32) : Vec F S512x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).1)

/-- Case B's piece for the scratch covers it. -/
theorem scover0_B (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i)
    (x0 x1 x2 x3 : Vec F S512x3 .f32) (xs0 : Vec F S512x1 .f32) (y : S512x1.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S512x1.size (by sl_kernel_rfl) y

/-- What case B leaves in the scratch. -/
def sout0_B (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i)
    (x0 x1 x2 x3 : Vec F S512x3 .f32) (xs0 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).1)

/-- Case C's piece for the result's staging buffer covers it. -/
theorem cover0_C_4 (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 x1 x2 x3 : Vec F S512x3 .f32) (xs0 : Vec F S512x1 .f32) (y : S512x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S512x1.size (by sl_kernel_rfl) y

/-- What case C leaves in the result's staging buffer. -/
def out0_C_4 (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 x1 x2 x3 : Vec F S512x3 .f32) (xs0 : Vec F S512x1 .f32) : Vec F S512x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's piece for the scratch covers it. -/
theorem scover0_C (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 x1 x2 x3 : Vec F S512x3 .f32) (xs0 : Vec F S512x1 .f32) (y : S512x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S512x1.size (by sl_kernel_rfl) y

/-- What case C leaves in the scratch. -/
def sout0_C (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 x1 x2 x3 : Vec F S512x3 .f32) (xs0 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the result's staging buffer and the scratch hold after each point -/

/-- After the body at position n: (the result's staging buffer, the scratch).  Column tile 0 is case A, column tile 7
    case C over what the point before left in the scratch, the others case B over the same. -/
def outsAt0 (c : Dev nD) : (n : ℕ) → n < cfg0.N → Vec F S512x1 .f32 × Vec F S512x1 .f32
  | 0, hn => (junk4, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (junk4, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (junk4, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a point of case A. -/
theorem outsAt0_A (c : Dev nD) (t : Fin cfg0.N) (h0 : t.val % 8 = 0) (h1 : ¬t.val % 8 = 7) :
    outsAt0 m c t.val t.isLt = (junk4, sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B: over what the point before left. -/
theorem outsAt0_B (c : Dev nD) (t : Fin cfg0.N) (h0 : ¬t.val % 8 = 0) (h1 : ¬t.val % 8 = 7) :
    outsAt0 m c t.val t.isLt = (junk4, sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: over what the point before left. -/
theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: before the first point the scratch at anything; afterwards the scratch at what the point before
    left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core c: the arrays as the region finds them; after the body each input's buffer at its block and
    the result's at `outsAt0`; the invariant `PhiS`; nothing owed; each point list's buffer held half by its row-tile
    window and half by its column-tile window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0_0 t) fullShare (iblk m c 0 t) := by
  rw [← after0_0 m c t]
theorem leaves_in1 (c : Dev nD) (t : Fin cfg0.N) : (dats m 0 c).leavesExact 1 t = owns (c : Thread nD τ) (ms0_1 t) fullShare (iblk m c 1 t) := by
  rw [← after0_1 m c t]
theorem leaves_in2 (c : Dev nD) (t : Fin cfg0.N) : (dats m 0 c).leavesExact 2 t = owns (c : Thread nD τ) (ms0_2 t) fullShare (iblk m c 2 t) := by
  rw [← after0_2 m c t]
theorem leaves_in3 (c : Dev nD) (t : Fin cfg0.N) : (dats m 0 c).leavesExact 3 t = owns (c : Thread nD τ) (ms0_3 t) fullShare (iblk m c 3 t) := by
  rw [← after0_3 m c t]

set_option maxHeartbeats 4800000 in
/-- The body at any point: the inputs' buffers hold their blocks; the column tile says which case the point is in; the
    invariant hands the body the scratch at what the point before left (at anything before the first point) and takes
    it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 64 := lt_of_lt_of_eq t.isLt (show cfg0.N = 64 from N_0)
  by_cases h0 : t.val % 8 = 0
  · have h1 : ¬t.val % 8 = 7 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold sout0_A; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    by_cases h1 : t.val % 8 = 7
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the scratch's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

/-! ## After the region -/

/-- What the five host operations after the region leave in @main's result buffer, as a function of the result's
    array: the [4096, 1] array flattened, summed from zero and scaled by a quarter. -/
def tailOut (o : Vec F S4096x1 .f32) : FVec F S_ .f32 :=
  mulf (constant S_ .f32 0x3E800000#32)
    (Host.reduceAdd (shapeCast S4096 o shapeCasts_S4096x1_S4096) (constant S_ .f32 0x00000000#32) reducesTo_S4096_S_d0 h_S_)

end Cert.KernelIdeal.Hand

end
-- ==== Proof.KI.Launch.lean ====
/-
  The launch: the region's arrays dealt among its windows, and the run of @main with every result named.

  Windows 0 and 1 read the first point list's buffer and windows 2 and 3 the second's: each buffer's full share is
  split in its two halves, one for the row-tile window and one for the column-tile window, and joined again at the
  region's exit (an input array is never written, so both halves hold the entry contents).  The result's buffer is
  window 4's alone.  After the region the five host operations read the result's array and write buffers no window
  stages; what they leave in @main's result buffer is a function of the result's array alone.
-/
import proofs.«163661_j61521111547944_1_alg».proof.Proof.KI.Frame
import proofs.«163661_j61521111547944_1_alg».proof.Proof.LibSharedArrayLaunch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' shares -/

/-- The same for any proof data that hold each point list's buffer half by its row-tile window and half by its
    column-tile window. -/
theorem arrays_iff_of (c : Dev nD) (dat : Dat τ (Elt F) Unit ℕ (UR sig nD τ) ℕ cfg0 c)
    (hq0 : dat.q 0 = fullShare.left) (hq1 : dat.q 1 = fullShare.right)
    (hq2 : dat.q 2 = fullShare.left) (hq3 : dat.q 3 = fullShare.right)
    (Vv : (b : Ref sig .tc) → Buf (Elt F) ((c : Thread nD τ).loc b))
    (Fw : (w : Fin cfg0.W) → Buf (Elt F) ((cfg0.win w).arr.view.loc (c : Thread nD τ)))
    (hF : ∀ w, Fw w = Vv (Pipeline.arrRef spec0 w)) :
    (Pipeline.arrBufs spec0 c Vv : sProp 𝕄) ⊣⊢ dat.arrays Fw := by
  classical
  -- the shares, window by window
  have s0 : dat.share 0 = fullShare.left := (if_neg (show ¬ (cfg0.win 0).isOut = true by decide)).trans hq0
  have s1 : dat.share 1 = fullShare.right := (if_neg (show ¬ (cfg0.win 1).isOut = true by decide)).trans hq1
  have s2 : dat.share 2 = fullShare.left := (if_neg (show ¬ (cfg0.win 2).isOut = true by decide)).trans hq2
  have s3 : dat.share 3 = fullShare.right := (if_neg (show ¬ (cfg0.win 3).isOut = true by decide)).trans hq3
  have s4 : dat.share 4 = fullShare := if_pos (show (cfg0.win 4).isOut = true by decide)
  unfold Pipeline.arrBufs Dat.arrays
  rw [bigSep_eq_bigSepL_of_eq [main_v2, main_v5, main_v6] (by decide) (by decide), bigSep_W0]
  simp only [bigSepL_cons_cons, bigSepL_singleton]
  rw [s0, s1, s2, s3, s4, hF 0, hF 1, hF 2, hF 3, hF 4]
  simp only [View.set_whole]
  show iprop(((c : Thread nD τ).loc main_v2 ↦{fullShare} Vv main_v2) ∗ ((c : Thread nD τ).loc main_v5 ↦{fullShare} Vv main_v5)
        ∗ ((c : Thread nD τ).loc main_v6 ↦{fullShare} Vv main_v6))
      ⊣⊢ (iprop(((c : Thread nD τ).loc main_v2 ↦{fullShare.left} Vv main_v2) ∗ ((c : Thread nD τ).loc main_v2 ↦{fullShare.right} Vv main_v2)
        ∗ ((c : Thread nD τ).loc main_v5 ↦{fullShare.left} Vv main_v5) ∗ ((c : Thread nD τ).loc main_v5 ↦{fullShare.right} Vv main_v5)
        ∗ ((c : Thread nD τ).loc main_v6 ↦{fullShare} Vv main_v6)) : sProp 𝕄)
  -- a whole buffer at the full share is its two halves
  have h2 := pointsTo_share (Ix := Unit) (Name := ℕ) (U := UR sig nD τ) (Lvl := ℕ) (ℓ := (c : Thread nD τ).loc main_v2)
    (I := Finset.univ) (f := Vv main_v2) (PosShare.mem_left_op_right fullShare)
  have h5 := pointsTo_share (Ix := Unit) (Name := ℕ) (U := UR sig nD τ) (Lvl := ℕ) (ℓ := (c : Thread nD τ).loc main_v5)
    (I := Finset.univ) (f := Vv main_v5) (PosShare.mem_left_op_right fullShare)
  refine ⟨?_, ?_⟩
  · refine (BIClass.sep_mono h2.1 (BIClass.sep_mono h5.1 .rfl)).trans ?_
    iintro ⟨⟨A, B⟩, ⟨C, D⟩, H6⟩
    isplitl [A]; · iexact A
    isplitl [B]; · iexact B
    isplitl [C]; · iexact C
    isplitl [D]; · iexact D
    iexact H6
  · iintro ⟨A, B, C, D, H6⟩
    isplitl [A B]
    · iapply h2.2; isplitl [A] <;> iassumption
    isplitl [C D]
    · iapply h5.2; isplitl [C] <;> iassumption
    iexact H6

/-- The buffers behind the windows' arrays, whole at contents Vv, are the proof data's arrays at the same contents
    window by window: each point list's buffer as its two halves. -/
theorem arrays_iff (c : Dev nD) (Vv : (b : Ref sig .tc) → Buf (Elt F) ((c : Thread nD τ).loc b))
    (Fw : (w : Fin cfg0.W) → Buf (Elt F) ((cfg0.win w).arr.view.loc (c : Thread nD τ)))
    (hF : ∀ w, Fw w = Vv (Pipeline.arrRef spec0 w)) :
    (Pipeline.arrBufs spec0 c Vv : sProp 𝕄) ⊣⊢ (dats m 0 c).arrays Fw :=
  arrays_iff_of c (dats m 0 c) rfl rfl rfl rfl Vv Fw hF

/-! ## The exit contents and the run -/

/-- Core c's buffer contents at the region's exit: the entry contents with the result's array at what the write-backs
    leave in it. -/
def WN (c : Dev nD) : Valuation τ sig (Elt F) :=
  Function.update (V0 m c) (Proc.devRef .tc main_v6) ((dats m 0 c).arrAt 4 cfg0.N)

/-- The exit contents at the result's array. -/
theorem WN_v6 (c : Dev nD) : WN m c (Proc.devRef .tc main_v6) = (dats m 0 c).arrAt 4 cfg0.N :=
  Function.update_self _ _ _

/-- The exit contents at any other buffer are the entry contents. -/
theorem WN_of_ne (c : Dev nD) (b : Ref sig .tc) (hb : b ≠ main_v6) :
    WN m c (Proc.devRef .tc b) = V0 m c (Proc.devRef .tc b) :=
  Function.update_of_ne (fun h => hb (Proc.devRef_injective _ h)) _ _

/-- A buffer that bypasses the region is not the result's array. -/
theorem hWN (c : Dev nD) : ∀ b ∈ Pipeline.restRefs sig spec0, WN m c (Proc.devRef .tc b) = V0 m c (Proc.devRef .tc b) :=
  fun b hb => WN_of_ne m c b fun h =>
    (Finset.mem_sdiff.mp hb).2 (Finset.mem_image.mpr ⟨4, Finset.mem_univ _, h.symm⟩)

/-- Every window's array at the region's exit is the exit contents at its buffer: an input array is never written. -/
theorem arrAtN_eq (c : Dev nD) (w : Fin cfg0.W) :
    (dats m 0 c).arrAt w cfg0.N = WN m c (Proc.devRef .tc (Pipeline.arrRef spec0 w)) := by
  fin_cases w
  · exact ((dats m 0 c).arrAt_in 0 rfl _).trans ((A_eq m c 0).trans (WN_of_ne m c _ (by decide)).symm)
  · exact ((dats m 0 c).arrAt_in 1 rfl _).trans ((A_eq m c 1).trans (WN_of_ne m c _ (by decide)).symm)
  · exact ((dats m 0 c).arrAt_in 2 rfl _).trans ((A_eq m c 2).trans (WN_of_ne m c _ (by decide)).symm)
  · exact ((dats m 0 c).arrAt_in 3 rfl _).trans ((A_eq m c 3).trans (WN_of_ne m c _ (by decide)).symm)
  · exact (WN_v6 m c).symm

/-- What the five later operations leave in @main's result buffer, from any contents. -/
theorem after_v9 (W : Valuation τ sig (Elt F)) :
    StableHlo.after (List.flatten [hostOps1]) W (Proc.devRef .tc main_v9) = tailOut (W (Proc.devRef .tc main_v6)) := by
  show StableHlo.after hostOps1 W (Proc.devRef .tc main_v9) = _
  after_results
  rfl

/-- They write neither argument. -/
theorem after_arg0 (W : Valuation τ sig (Elt F)) :
    StableHlo.after (List.flatten [hostOps1]) W (Proc.devRef .tc main_arg0) = W (Proc.devRef .tc main_arg0) := by
  show StableHlo.after hostOps1 W (Proc.devRef .tc main_arg0) = _
  after_results

theorem after_arg1 (W : Valuation τ sig (Elt F)) :
    StableHlo.after (List.flatten [hostOps1]) W (Proc.devRef .tc main_arg1) = W (Proc.devRef .tc main_arg1) := by
  show StableHlo.after hostOps1 W (Proc.devRef .tc main_arg1) = _
  after_results

/-- Nor do the six earlier ones. -/
theorem V0_arg0 (c : Dev nD) : V0 m c (Proc.devRef .tc main_arg0) = m ((c.tc : Thread nD τ).loc main_arg0) := by
  show StableHlo.after hostOps0 (fun b => m (c, b)) (Proc.devRef .tc main_arg0) = _
  after_results

theorem V0_arg1 (c : Dev nD) : V0 m c (Proc.devRef .tc main_arg1) = m ((c.tc : Thread nD τ).loc main_arg1) := by
  show StableHlo.after hostOps0 (fun b => m (c, b)) (Proc.devRef .tc main_arg1) = _
  after_results

theorem v9_rest : main_v9 ∈ Pipeline.restRefs sig spec0 := Pipeline.mem_restRefs_of main_v9 rfl (by decide)
theorem arg0_rest : main_arg0 ∈ Pipeline.restRefs sig spec0 := Pipeline.mem_restRefs_of main_arg0 rfl (by decide)
theorem arg1_rest : main_arg1 ∈ Pipeline.restRefs sig spec0 := Pipeline.mem_restRefs_of main_arg1 rfl (by decide)

set_option backward.isDefEq.respectTransparency.types false in
/-- THE RUN.  Every weakly fair execution of @main terminates without a fault; @main's result buffer ends at
    `tailOut` of the result's array as the write-backs leave it, and the two arguments end as launched. -/
theorem run_main : θ_run defs (onTc (τ := τ) (main (F := F))) ⟨m, fun _ => 0, ρ⟩ (fun r => ∀ c : Dev nD,
      r.2.mem ((c.tc : Thread nD τ).loc main_v9) = tailOut ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun r h c => ⟨
      ((h c).2 main_v9 v9_rest).trans ((after_v9 (WN m c)).trans (congrArg tailOut (WN_v6 m c))),
      ((h c).2 main_arg0 arg0_rest).trans ((after_arg0 (WN m c)).trans ((WN_of_ne m c main_arg0 (by decide)).trans (V0_arg0 m c))),
      ((h c).2 main_arg1 arg1_rest).trans ((after_arg1 (WN m c)).trans ((WN_of_ne m c main_arg1 (by decide)).trans (V0_arg1 m c)))⟩)
    (Pipeline.SharedArr.θ_run_frame_around_track_shared cfgs (dats m) (0 : Fin 1) defs₀ Variants.none cellOf_inj winFacts₀0
      block_pos0 arr_whole0 stage_whole0 m ρ main
      (hbody := fun c => (body_obligation m c).loose) (howed := fun _ _ => rfl) (V₀ := V0 m) (opss := [hostOps1])
      sfx_sub sfx_fresh sfx_keeps (hmain m Variants.none) (WN := WN m) (hWN m)
      (fun c => (arrays_iff m c (V m c) _ (A_eq m c)).1)
      (fun c => (arrays_iff m c (fun b => WN m c (Proc.devRef .tc b)) _ (arrAtN_eq m c)).2)
      (fun c => (arrays_iff m c (fun b => WN m c (Proc.devRef .tc b)) _ (arrAtN_eq m c)).1)
      (hin m) (hout m))

end Cert.KernelIdeal.Hand

end
-- ==== Proof.KI.Pieces.lean ====
/-
  What each case's stores leave, as the body's arithmetic of the blocks it loaded.

  The scratch after a point is the update `k0_pay1` — the scratch's earlier contents plus the tile's row sums
  `k0_pay9` of the four loaded blocks — applied to the zero vector `k0_pay2` at column tile 0 (the reset is read back
  by the update) and to what the point before left elsewhere; at column tile 7 the result's staging buffer receives
  the scratch just stored.
-/
import proofs.«163661_j61521111547944_1_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body: zero on both axes. -/
theorem offs_zero : (![0, 0] : Fin 2 → Nat) = fun _ => 0 := funext fun a => by fin_cases a <;> rfl

/-- The tile's row sums as the body computes them from the four loaded blocks. -/
def tileVec (x0 x1 x2 x3 : Vec F S512x3 .f32) : FVec F S512 .f32 :=
  k0_pay9 (k0_pay3 x0) (k0_pay4 x1) (k0_pay5 x2) (k0_pay6 x3) (k0_pay7 x0 x1) (k0_pay8 x2 x3)

theorem sout0_A_eq (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i)
    (x0 x1 x2 x3 : Vec F S512x3 .f32) :
    sout0_A c i arg2 harg2 arg3 harg3 arg4 harg4 arg5 harg5 arg6 harg6 arg7 harg7 hc0 hc1 x0 x1 x2 x3 = k0_pay1 (tileVec x0 x1 x2 x3) (k0_pay2 (F := F)) := by
  unfold sout0_A
  rw [View.read_writes_eq_canon _ _ _ (scover0_A c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x1) offs_zero, View.readCov_unit_zero (S := S512x1) _ offs_zero]
  simp only [View.readAt_eq_ld, harg2.read_unread, harg3.read_unread, harg4.read_unread, harg5.read_unread, View.ld_unit_zero (S := S512x3) offs_zero]
  rfl

theorem sout0_B_eq (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i)
    (x0 x1 x2 x3 : Vec F S512x3 .f32) (xs0 : Vec F S512x1 .f32) :
    sout0_B c i arg2 harg2 arg3 harg3 arg4 harg4 arg5 harg5 arg6 harg6 arg7 harg7 hc0 hc1 x0 x1 x2 x3 xs0 = k0_pay1 (tileVec x0 x1 x2 x3) xs0 := by
  unfold sout0_B
  rw [View.read_writes_eq_canon _ _ _ (scover0_B c i arg2 harg2 arg3 harg3 arg4 harg4 arg5 harg5 arg6 harg6 arg7 harg7 hc0 hc1 x0 x1 x2 x3 xs0)]
  unfold kernelRun0_B
  dsimp only
  sl_unfold_words
  rw [View.canon_unit_zero (S := S512x1) offs_zero]
  simp only [View.readAt_eq_ld, harg2.read_unread, harg3.read_unread, harg4.read_unread, harg5.read_unread, harg7.read_unread, View.ld_unit_zero (S := S512x3) offs_zero, View.ld_unit_zero (S := S512x1) offs_zero]
  rfl

theorem sout0_C_eq (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 x1 x2 x3 : Vec F S512x3 .f32) (xs0 : Vec F S512x1 .f32) :
    sout0_C c i arg2 harg2 arg3 harg3 arg4 harg4 arg5 harg5 arg6 harg6 arg7 harg7 hc0 hc1 x0 x1 x2 x3 xs0 = k0_pay1 (tileVec x0 x1 x2 x3) xs0 := by
  unfold sout0_C
  rw [View.read_writes_eq_canon _ _ _ (scover0_C c i arg2 harg2 arg3 harg3 arg4 harg4 arg5 harg5 arg6 harg6 arg7 harg7 hc0 hc1 x0 x1 x2 x3 xs0)]
  unfold kernelRun0_C
  dsimp only
  sl_unfold_words
  rw [View.canon_unit_zero (S := S512x1) offs_zero]
  simp only [View.readAt_eq_ld, harg2.read_unread, harg3.read_unread, harg4.read_unread, harg5.read_unread, harg7.read_unread, View.ld_unit_zero (S := S512x3) offs_zero, View.ld_unit_zero (S := S512x1) offs_zero]
  rfl

theorem out0_C_4_eq (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x3 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 x1 x2 x3 : Vec F S512x3 .f32) (xs0 : Vec F S512x1 .f32) :
    out0_C_4 c i arg2 harg2 arg3 harg3 arg4 harg4 arg5 harg5 arg6 harg6 arg7 harg7 hc0 hc1 x0 x1 x2 x3 xs0 = k0_pay1 (tileVec x0 x1 x2 x3) xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S512x1) offs_zero, View.readCov_unit_zero (S := S512x1) _ offs_zero]
  simp only [View.readAt_eq_ld, harg2.read_unread, harg3.read_unread, harg4.read_unread, harg5.read_unread, harg7.read_unread, View.ld_unit_zero (S := S512x3) offs_zero, View.ld_unit_zero (S := S512x1) offs_zero]
  rfl

end Cert.KernelIdeal.Hand

end
-- ==== Proof.Spec.lean ====
/-
  The mathematics both programs compute, on the extended reals.

  Two point lists p, q : 4096 points of 3 coordinates each (read off the two [1,3,64,64] arguments:
  point n, coordinate c is the argument's entry (0, c, n / 64, n % 64)).  For a pair (i, j) the squared
  distance is the sum over the three coordinates of the squared differences; the guarded root is its square
  root where it is positive and 0 elsewhere; the pair's term is
      (2 · min (d_p / 2, 1) − 1) · max (1 − d_q / 2, 0).
  The result is a quarter of the sum of the terms over all pairs.  The kernel sums a row's terms 512 columns at
  a time (eight tiles), the reference sums each row whole, halves it, sums the rows and halves again.
-/
import Idealize.ShloMosaic.PureOps.Ideal
import Idealize.ShloMosaic.PureOps.Ideal.Laws
import Idealize.ShloMosaic.Lib.ValueIdx

noncomputable section

namespace PairLoss

open Idealize.ShloMosaic

/-- The float words the two programs spell, as the extended reals they denote. -/
abbrev w0 : EReal := Ideal.ofBits .f32 0x00000000#32
abbrev w1 : EReal := Ideal.ofBits .f32 0x3F800000#32
abbrev wh : EReal := Ideal.ofBits .f32 0x3F000000#32
abbrev w2 : EReal := Ideal.ofBits .f32 0x40000000#32
abbrev wq : EReal := Ideal.ofBits .f32 0x3E800000#32

abbrev A4 : Shape := ⟨4, ![1, 3, 64, 64]⟩

/-- Point n, coordinate c of an argument array. -/
def pts (a : A4.Idx → EReal) (n : Fin 4096) (c : Fin 3) : EReal :=
  a (ValueIdx.ix4 (0 : Fin 1) c (⟨n.val / 64, by omega⟩ : Fin 64) (⟨n.val % 64, by omega⟩ : Fin 64))

/-- Squared distance of points i and j: from zero, the three squared coordinate differences added in order. -/
def sqd (p : Fin 4096 → Fin 3 → EReal) (i j : Fin 4096) : EReal :=
  ((w0 + (p i 0 - p j 0) * (p i 0 - p j 0)) + (p i 1 - p j 1) * (p i 1 - p j 1)) + (p i 2 - p j 2) * (p i 2 - p j 2)

/-- The guarded root: the square root where the argument is positive (the inner selection keeps the root's argument
    positive everywhere), zero elsewhere. -/
def gsqrt (s : EReal) : EReal :=
  Scalar.select (Ideal.cmp .ogt s w0) (Ideal.sqrt (Scalar.select (Ideal.cmp .ogt s w0) s w1)) w0

/-- The term of the pair (i, j). -/
def term (p q : Fin 4096 → Fin 3 → EReal) (i j : Fin 4096) : EReal :=
  (w2 * min (gsqrt (sqd p i j) * wh) w1 - w1) * max (w1 - gsqrt (sqd q i j) * wh) w0

/-- Row r's terms over the 512 columns of tile jt. -/
def tileSum (p q : Fin 4096 → Fin 3 → EReal) (r : Fin 4096) (jt : Fin 8) : EReal :=
  ∑ k : Fin 512, term p q r ⟨512 * jt.val + k.val, by omega⟩

/-- Row r's terms, tile by tile. -/
def rowSum (p q : Fin 4096 → Fin 3 → EReal) (r : Fin 4096) : EReal := ∑ jt : Fin 8, tileSum p q r jt

/-- The whole result as the kernel's program arranges it: a quarter of (zero plus the sum of the row sums). -/
def total (p q : Fin 4096 → Fin 3 → EReal) : EReal := wq * (w0 + ∑ r : Fin 4096, rowSum p q r)

end PairLoss

end
-- ==== Proof.SpecTile.lean ====
/-
  The pair's term as a function of the four points it reads, and a tile's row sums as a function of the four blocks
  of 512 points a grid point is handed.
-/
import proofs.«163661_j61521111547944_1_alg».proof.Proof.Spec

noncomputable section

namespace PairLoss

open Idealize.ShloMosaic

/-- Squared distance of two points. -/
def sqd2 (a b : Fin 3 → EReal) : EReal :=
  ((w0 + (a 0 - b 0) * (a 0 - b 0)) + (a 1 - b 1) * (a 1 - b 1)) + (a 2 - b 2) * (a 2 - b 2)

/-- The term of a pair from its four points: the first list's points i and j, the second list's points i and j. -/
def term4 (a b c d : Fin 3 → EReal) : EReal :=
  (w2 * min (gsqrt (sqd2 a b) * wh) w1 - w1) * max (w1 - gsqrt (sqd2 c d) * wh) w0

theorem term_eq_term4 (p q : Fin 4096 → Fin 3 → EReal) (i j : Fin 4096) :
    term p q i j = term4 (p i) (p j) (q i) (q j) := rfl

abbrev B3 : Shape := ⟨2, ![512, 3]⟩

/-- Row r of a block of 512 points. -/
def rowOf (x : B3.Idx → EReal) (r : Fin 512) : Fin 3 → EReal := fun cc => x (ValueIdx.ix2 r cc)

/-- The sums, over the 512 columns of a tile, of the terms of row r: from the row tile's blocks xi, yi of the two lists
    and the column tile's blocks xj, yj. -/
def tileRow (xi xj yi yj : B3.Idx → EReal) (r : Fin 512) : EReal :=
  ∑ k : Fin 512, term4 (rowOf xi r) (rowOf xj k) (rowOf yi r) (rowOf yj k)

end PairLoss

end
-- ==== Proof.KI.Payload.lean ====
/-
  The body's arithmetic read at an index, at the ideal values: the tile's row sums are, row by row, the sum over the
  tile's 512 columns of the pair's term of the four points; the update adds them to the scratch; the reset is zero.
-/
import proofs.«163661_j61521111547944_1_alg».proof.Proof.Gen.KernelIdeal.Skeleton
import proofs.«163661_j61521111547944_1_alg».proof.Proof.SpecTile
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandValue

open Cert.KernelIdeal Cert.KernelIdeal.Gen
open Idealize.ShloMosaic Idealize.ShloMosaic.ValueIdx

/-- The tile's row sums as the body computes them from the four loaded blocks (the same term as
    `Cert.KernelIdeal.Hand.tileVec` at the ideal values). -/
def tileVecI (x0 x1 x2 x3 : Vec Ideal S512x3 .f32) : FVec Ideal S512 .f32 :=
  k0_pay9 (F := Ideal) (k0_pay3 x0) (k0_pay4 x1) (k0_pay5 x2) (k0_pay6 x3) (k0_pay7 x0 x1) (k0_pay8 x2 x3)

/-! ### Layout operations at an index -/

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `c` of a block of points, kept as a column and spread over the 512 columns of a tile: at `(r, k)` it is the
    block's entry `(r, c)`. -/
theorem colB_apply (x : FVec Ideal S512x3 .f32) (o : Nat) (hs : S512x3.Slices ![0, o] S512x1)
    (hb : S512x1.Broadcasts S512x512) (r k : Fin 512) (c : Fin 3) (hc : c.val = o + (0 : Fin 1).val) :
    broadcastTo S512x512 (extractStridedSlice S512x1 ![0, o] x hs) hb (ix2 r k) = x (ix2 r c) := by
  refine (broadcastTo_a1_ab_apply _ hb r k).trans ?_
  exact slice2_axis1_apply o x hs r (0 : Fin 1) c hc

/-- Column `c` of a block of points, turned into a row and spread over the 512 rows of a tile: at `(r, k)` it is the
    block's entry `(k, c)`. -/
theorem rowB_apply (x : FVec Ideal S512x3 .f32) (o : Nat) (hs : S512x3.Slices ![0, o] S512x1)
    (ht : S512x1.Transposes [1, 0] S1x512) (hb : S1x512.Broadcasts S512x512) (r k : Fin 512) (c : Fin 3)
    (hc : c.val = o + (0 : Fin 1).val) :
    broadcastTo S512x512 (transpose S1x512 [1, 0] (extractStridedSlice S512x1 ![0, o] x hs) ht) hb (ix2 r k)
      = x (ix2 k c) := by
  refine (broadcastTo_1b_ab_apply _ hb r k).trans ?_
  refine (transpose_ix2_apply _ ht (0 : Fin 1) k).trans ?_
  exact slice2_axis1_apply o x hs k (0 : Fin 1) c hc

/-- The sum over a tile's columns: a `[512, 512]` array summed along its second axis reads, at row `r`, the sum over
    `k` of its entries `(r, k)`. -/
theorem laneSum_apply (src : FVec Ideal S512x512 .f32) (h : S512x512.Reduces [1] S512) (hφ : FKind.Formats .f32)
    (hacc : (0x00000000#32 : BitVec 32) = FKind.add.neutral .f32 hφ) (r : Fin 512) :
    multiReduction .add [1] S512 src 0x00000000#32 h hφ hacc (ix1 r) = ∑ k : Fin 512, src (ix2 r k) := by
  refine (Ideal.multiReduction_add_single src _ h hφ hacc (ix1 r)).trans ?_
  show ∑ k : Fin 512, src (h.lift (ix1 r) k) = _
  refine Finset.sum_congr rfl fun k _ => congrArg src ?_
  funext a
  apply Fin.ext
  match a with
  | ⟨0, _⟩ => rfl
  | ⟨1, _⟩ => rfl

/-! ### The squared distances and the tile's sums -/

/-- The square root on vectors is pointwise. -/
theorem sqrt_apply {s : Shape} {φ : FTy} (a : FVec Ideal s φ) (i : s.Idx) : sqrt a i = Ideal.sqrt (a i) := rfl

/-- The first two coordinates' squared differences of the first point list, from zero, at the pair `(r, k)`. -/
theorem pay7_apply (x0 x1 : Vec Ideal S512x3 .f32) (r k : Fin 512) :
    k0_pay7 (F := Ideal) x0 x1 (ix2 r k)
      = (PairLoss.w0 + (x0 (ix2 r (0 : Fin 3)) - x1 (ix2 k (0 : Fin 3))) * (x0 (ix2 r (0 : Fin 3)) - x1 (ix2 k (0 : Fin 3))))
        + (x0 (ix2 r (1 : Fin 3)) - x1 (ix2 k (1 : Fin 3))) * (x0 (ix2 r (1 : Fin 3)) - x1 (ix2 k (1 : Fin 3))) := by
  have a0 := colB_apply x0 0 slices_S512x3_o0_0_S512x1 broadcasts_S512x1_S512x512 r k 0 rfl
  have b0 := rowB_apply x1 0 slices_S512x3_o0_0_S512x1 transposes_S512x1_p1_0_S1x512 broadcasts_S1x512_S512x512 r k 0 rfl
  have a1 := colB_apply x0 1 slices_S512x3_o0_1_S512x1 broadcasts_S512x1_S512x512 r k 1 rfl
  have b1 := rowB_apply x1 1 slices_S512x3_o0_1_S512x1 transposes_S512x1_p1_0_S1x512 broadcasts_S1x512_S512x512 r k 1 rfl
  unfold k0_pay7 k0_pay3 k0_pay4
  simp only [shapeCast_self, addf_apply, mulf_apply, subf_apply, broadcast_apply, a0, b0, a1, b1]
  rfl

/-- The same for the second point list. -/
theorem pay8_apply (x2 x3 : Vec Ideal S512x3 .f32) (r k : Fin 512) :
    k0_pay8 (F := Ideal) x2 x3 (ix2 r k)
      = (PairLoss.w0 + (x2 (ix2 r (0 : Fin 3)) - x3 (ix2 k (0 : Fin 3))) * (x2 (ix2 r (0 : Fin 3)) - x3 (ix2 k (0 : Fin 3))))
        + (x2 (ix2 r (1 : Fin 3)) - x3 (ix2 k (1 : Fin 3))) * (x2 (ix2 r (1 : Fin 3)) - x3 (ix2 k (1 : Fin 3))) := by
  have a0 := colB_apply x2 0 slices_S512x3_o0_0_S512x1 broadcasts_S512x1_S512x512 r k 0 rfl
  have b0 := rowB_apply x3 0 slices_S512x3_o0_0_S512x1 transposes_S512x1_p1_0_S1x512 broadcasts_S1x512_S512x512 r k 0 rfl
  have a1 := colB_apply x2 1 slices_S512x3_o0_1_S512x1 broadcasts_S512x1_S512x512 r k 1 rfl
  have b1 := rowB_apply x3 1 slices_S512x3_o0_1_S512x1 transposes_S512x1_p1_0_S1x512 broadcasts_S1x512_S512x512 r k 1 rfl
  unfold k0_pay8 k0_pay5 k0_pay6
  simp only [shapeCast_self, addf_apply, mulf_apply, subf_apply, broadcast_apply, a0, b0, a1, b1]
  rfl

/-- Row r of the tile's sums is the sum over the tile's columns of the terms of the four points. -/
theorem tileVecI_apply (x0 x1 x2 x3 : Vec Ideal S512x3 .f32) (r : Fin 512) :
    tileVecI x0 x1 x2 x3 (ix1 r) = PairLoss.tileRow x0 x1 x2 x3 r := by
  unfold tileVecI k0_pay9
  refine (laneSum_apply _ _ _ _ r).trans ?_
  unfold PairLoss.tileRow
  refine Finset.sum_congr rfl fun k _ => ?_
  have a2 := colB_apply x0 2 slices_S512x3_o0_2_S512x1 broadcasts_S512x1_S512x512 r k 2 rfl
  have b2 := rowB_apply x1 2 slices_S512x3_o0_2_S512x1 transposes_S512x1_p1_0_S1x512 broadcasts_S1x512_S512x512 r k 2 rfl
  have c2 := colB_apply x2 2 slices_S512x3_o0_2_S512x1 broadcasts_S512x1_S512x512 r k 2 rfl
  have d2 := rowB_apply x3 2 slices_S512x3_o0_2_S512x1 transposes_S512x1_p1_0_S1x512 broadcasts_S1x512_S512x512 r k 2 rfl
  simp only [k0_pay3, k0_pay4, k0_pay5, k0_pay6, shapeCast_self, addf_apply, mulf_apply, subf_apply, broadcast_apply,
    cmpf_apply, select_apply, minimumf_apply, maximumf_apply, sqrt_apply, pay7_apply, pay8_apply, a2, b2, c2, d2]
  rfl

/-- The update adds the tile's row sums to the scratch. -/
theorem pay1_apply (v90 : FVec Ideal S512 .f32) (v92 : Vec Ideal S512x1 .f32) (r : Fin 512) :
    k0_pay1 (F := Ideal) v90 v92 (ix2 r (0 : Fin 1)) = v92 (ix2 r (0 : Fin 1)) + v90 (ix1 r) := by
  unfold k0_pay1
  simp only [shapeCast_self, addf_apply]
  exact congrArg (v92 (ix2 r (0 : Fin 1)) + ·) (shapeCast_a_a1_apply v90 _ r (0 : Fin 1))

/-- The reset is zero. -/
theorem pay2_apply (r : Fin 512) : k0_pay2 (F := Ideal) (ix2 r (0 : Fin 1)) = 0 := by
  unfold k0_pay2
  simp only [shapeCast_self, broadcast_apply]
  exact Ideal.ofBits_zero_f32

end Cert.KernelIdeal.HandValue

end
-- ==== Proof.KI.Blocks.lean ====
/-
  The blocks a grid point is handed, as points of the two arguments.

  The six host operations before the region re-lay each [1, 3, 64, 64] argument as a [4096, 3] list of points: entry
  (n, cc) of the list is the argument's entry (0, cc, n / 64, n % 64).  Window 0's block at grid point t is the rows
  512·(t / 8) … of the first list, window 1's the rows 512·(t % 8) …; windows 2 and 3 the same of the second list.
-/
import proofs.«163661_j61521111547944_1_alg».proof.Proof.KI.Frame
import proofs.«163661_j61521111547944_1_alg».proof.Proof.SpecTile
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-! ## The host stretch -/

/-- The first point list as the region finds it: the three host operations applied to the first argument. -/
theorem V_v2_eq (c : Dev nD) :
    (V m c main_v2 : S4096x3.Idx → EReal)
      = shapeCast S4096x3 (transpose S1x4096x3 [0, 2, 1]
          (shapeCast S1x3x4096 (m ((c.tc : Thread nD τ).loc main_arg0) : S1x3x64x64.Idx → EReal) Gen.shapeCasts_S1x3x64x64_S1x3x4096)
          Gen.transposes_S1x3x4096_S1x4096x3_0_2_1) Gen.shapeCasts_S1x4096x3_S4096x3 := by
  show StableHlo.after hostOps0 (fun b => m (c, b)) (Proc.devRef .tc main_v2) = _
  after_results
  rfl

/-- The re-laying of an argument as a point list, read at point n and coordinate cc: the flattening of the leading unit
    axis keeps position 3 n + cc, the transpose swaps the two coordinates, and the flat position 4096 cc + n of the first
    reshape splits into plane cc, row n / 64 and column n % 64. -/
theorem relay_apply (x : S1x3x64x64.Idx → EReal) (n : Fin 4096) (cc : Fin 3) :
    shapeCast S4096x3 (transpose S1x4096x3 [0, 2, 1]
        (shapeCast S1x3x4096 x Gen.shapeCasts_S1x3x64x64_S1x3x4096)
        Gen.transposes_S1x3x4096_S1x4096x3_0_2_1) Gen.shapeCasts_S1x4096x3_S4096x3 (ix2 n cc)
      = PairLoss.pts x n cc := by
  refine (shapeCast_apply _ Gen.shapeCasts_S1x4096x3_S4096x3 (ix2 n cc) (ix3 (0 : Fin 1) n cc) ?_).trans ?_
  · rw [Shape.rowMajor_val_three, Shape.rowMajor_val_two]
    show (0 * 4096 + n.val) * 3 + cc.val = n.val * 3 + cc.val
    omega
  refine (transpose_apply [0, 2, 1] _ Gen.transposes_S1x3x4096_S1x4096x3_0_2_1 (ix3 (0 : Fin 1) n cc)
    (ix3 (0 : Fin 1) cc n) (fun b => match b with
      | ⟨0, _⟩ => rfl
      | ⟨1, _⟩ => rfl
      | ⟨2, _⟩ => rfl)).trans ?_
  refine (shapeCast_apply x Gen.shapeCasts_S1x3x64x64_S1x3x4096 (ix3 (0 : Fin 1) cc n)
    (ix4 (0 : Fin 1) cc (⟨n.val / 64, by omega⟩ : Fin 64) (⟨n.val % 64, by omega⟩ : Fin 64)) ?_).trans rfl
  rw [Shape.rowMajor_val_four, Shape.rowMajor_val_three]
  show ((0 * 3 + cc.val) * 64 + n.val / 64) * 64 + n.val % 64 = (0 * 3 + cc.val) * 4096 + n.val
  omega

/-- The second point list as the region finds it: the three host operations applied to the second argument. -/
theorem V_v5_eq (c : Dev nD) :
    (V m c main_v5 : S4096x3.Idx → EReal)
      = shapeCast S4096x3 (transpose S1x4096x3 [0, 2, 1]
          (shapeCast S1x3x4096 (m ((c.tc : Thread nD τ).loc main_arg1) : S1x3x64x64.Idx → EReal) Gen.shapeCasts_S1x3x64x64_S1x3x4096)
          Gen.transposes_S1x3x4096_S1x4096x3_0_2_1) Gen.shapeCasts_S1x4096x3_S4096x3 := by
  show StableHlo.after hostOps0 (fun b => m (c, b)) (Proc.devRef .tc main_v5) = _
  after_results
  rfl

/-- The first point list as the region finds it. -/
theorem V_v2_apply (c : Dev nD) (n : Fin 4096) (cc : Fin 3) :
    (V m c main_v2 : S4096x3.Idx → EReal) (ix2 n cc) = PairLoss.pts (m ((c.tc : Thread nD τ).loc main_arg0)) n cc := by
  rw [V_v2_eq]
  exact relay_apply _ n cc

/-- The second point list as the region finds it. -/
theorem V_v5_apply (c : Dev nD) (n : Fin 4096) (cc : Fin 3) :
    (V m c main_v5 : S4096x3.Idx → EReal) (ix2 n cc) = PairLoss.pts (m ((c.tc : Thread nD τ).loc main_arg1)) n cc := by
  rw [V_v5_eq]
  exact relay_apply _ n cc

/-- The windows' block indices, decided over the grid: windows 0 and 2 take the row tile t / 8, windows 1 and 3 the
    column tile t % 8, each on the second axis block 0. -/
theorem idx_tiles : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val % 8 ∧ win0_3.index t (1 : Fin 2) = 0 :=
  (by decide +kernel : ∀ t : Fin grid0.N, _)

/-! ## The blocks -/

/-- Window 0's block, as rows of the first list: a block's coordinate is its block index times the block's extent plus
    the coordinate inside the block. -/
theorem iblk0_rows (c : Dev nD) (t : Fin cfg0.N) (ht : t.val < 64) (r : Fin 512) (cc : Fin 3) :
    (iblk m c 0 t : S512x3.Idx → EReal) (ix2 r cc)
      = (V m c main_v2 : S4096x3.Idx → EReal) (ix2 (⟨512 * (t.val / 8) + r.val, by omega⟩ : Fin 4096) cc) := by
  obtain ⟨e0, e1, -⟩ := idx_tiles t
  show V m c main_v2 (((cfg0.win 0).blk t).view.emb (ix2 r cc)) = V m c main_v2 _
  refine congrArg _ (funext fun a => Fin.ext ?_)
  match a with
  | ⟨0, _⟩ =>
    show win0_0.index t (0 : Fin 2) * 512 + 1 * r.val = 512 * (t.val / 8) + r.val
    omega
  | ⟨1, _⟩ =>
    show win0_0.index t (1 : Fin 2) * 3 + 1 * cc.val = cc.val
    omega

/-- Window 0's block: the row tile's points of the first list. -/
theorem iblk0_apply (c : Dev nD) (t : Fin cfg0.N) (ht : t.val < 64) (r : Fin 512) (cc : Fin 3) :
    (iblk m c 0 t : S512x3.Idx → EReal) (ix2 r cc)
      = PairLoss.pts (m ((c.tc : Thread nD τ).loc main_arg0)) ⟨512 * (t.val / 8) + r.val, by omega⟩ cc := by
  rw [iblk0_rows m c t ht r cc, V_v2_apply]

/-- Window 1's block, as rows of the first list: a block's coordinate is its block index times the block's extent plus
    the coordinate inside the block. -/
theorem iblk1_rows (c : Dev nD) (t : Fin cfg0.N) (ht : t.val < 64) (r : Fin 512) (cc : Fin 3) :
    (iblk m c 1 t : S512x3.Idx → EReal) (ix2 r cc)
      = (V m c main_v2 : S4096x3.Idx → EReal) (ix2 (⟨512 * (t.val % 8) + r.val, by omega⟩ : Fin 4096) cc) := by
  obtain ⟨-, -, e0, e1, -⟩ := idx_tiles t
  show V m c main_v2 (((cfg0.win 1).blk t).view.emb (ix2 r cc)) = V m c main_v2 _
  refine congrArg _ (funext fun a => Fin.ext ?_)
  match a with
  | ⟨0, _⟩ =>
    show win0_1.index t (0 : Fin 2) * 512 + 1 * r.val = 512 * (t.val % 8) + r.val
    omega
  | ⟨1, _⟩ =>
    show win0_1.index t (1 : Fin 2) * 3 + 1 * cc.val = cc.val
    omega

/-- Window 1's block: the column tile's points of the first list. -/
theorem iblk1_apply (c : Dev nD) (t : Fin cfg0.N) (ht : t.val < 64) (r : Fin 512) (cc : Fin 3) :
    (iblk m c 1 t : S512x3.Idx → EReal) (ix2 r cc)
      = PairLoss.pts (m ((c.tc : Thread nD τ).loc main_arg0)) ⟨512 * (t.val % 8) + r.val, by omega⟩ cc := by
  rw [iblk1_rows m c t ht r cc, V_v2_apply]

/-- Window 2's block, as rows of the second list: a block's coordinate is its block index times the block's extent plus
    the coordinate inside the block. -/
theorem iblk2_rows (c : Dev nD) (t : Fin cfg0.N) (ht : t.val < 64) (r : Fin 512) (cc : Fin 3) :
    (iblk m c 2 t : S512x3.Idx → EReal) (ix2 r cc)
      = (V m c main_v5 : S4096x3.Idx → EReal) (ix2 (⟨512 * (t.val / 8) + r.val, by omega⟩ : Fin 4096) cc) := by
  obtain ⟨-, -, -, -, e0, e1, -⟩ := idx_tiles t
  show V m c main_v5 (((cfg0.win 2).blk t).view.emb (ix2 r cc)) = V m c main_v5 _
  refine congrArg _ (funext fun a => Fin.ext ?_)
  match a with
  | ⟨0, _⟩ =>
    show win0_2.index t (0 : Fin 2) * 512 + 1 * r.val = 512 * (t.val / 8) + r.val
    omega
  | ⟨1, _⟩ =>
    show win0_2.index t (1 : Fin 2) * 3 + 1 * cc.val = cc.val
    omega

/-- Window 2's block: the row tile's points of the second list. -/
theorem iblk2_apply (c : Dev nD) (t : Fin cfg0.N) (ht : t.val < 64) (r : Fin 512) (cc : Fin 3) :
    (iblk m c 2 t : S512x3.Idx → EReal) (ix2 r cc)
      = PairLoss.pts (m ((c.tc : Thread nD τ).loc main_arg1)) ⟨512 * (t.val / 8) + r.val, by omega⟩ cc := by
  rw [iblk2_rows m c t ht r cc, V_v5_apply]

/-- Window 3's block, as rows of the second list: a block's coordinate is its block index times the block's extent plus
    the coordinate inside the block. -/
theorem iblk3_rows (c : Dev nD) (t : Fin cfg0.N) (ht : t.val < 64) (r : Fin 512) (cc : Fin 3) :
    (iblk m c 3 t : S512x3.Idx → EReal) (ix2 r cc)
      = (V m c main_v5 : S4096x3.Idx → EReal) (ix2 (⟨512 * (t.val % 8) + r.val, by omega⟩ : Fin 4096) cc) := by
  obtain ⟨-, -, -, -, -, -, e0, e1⟩ := idx_tiles t
  show V m c main_v5 (((cfg0.win 3).blk t).view.emb (ix2 r cc)) = V m c main_v5 _
  refine congrArg _ (funext fun a => Fin.ext ?_)
  match a with
  | ⟨0, _⟩ =>
    show win0_3.index t (0 : Fin 2) * 512 + 1 * r.val = 512 * (t.val % 8) + r.val
    omega
  | ⟨1, _⟩ =>
    show win0_3.index t (1 : Fin 2) * 3 + 1 * cc.val = cc.val
    omega

/-- Window 3's block: the column tile's points of the second list. -/
theorem iblk3_apply (c : Dev nD) (t : Fin cfg0.N) (ht : t.val < 64) (r : Fin 512) (cc : Fin 3) :
    (iblk m c 3 t : S512x3.Idx → EReal) (ix2 r cc)
      = PairLoss.pts (m ((c.tc : Thread nD τ).loc main_arg1)) ⟨512 * (t.val % 8) + r.val, by omega⟩ cc := by
  rw [iblk3_rows m c t ht r cc, V_v5_apply]

end Cert.KernelIdeal.HandValue

end
-- ==== Proof.KI.Value.lean ====
/-
  The kernel's result, at the ideal values, is the kernel's arrangement of the mathematics over the two arguments'
  point lists.

  By induction on the column tile the scratch after grid point t holds, row by row, the sum of the row's tile sums
  over the column tiles up to t's; at column tile 7 that is the row's whole sum, and it is what the result's staging
  buffer is written back with; the eight write-backs (one per row tile) cover the [4096, 1] result array; the host
  operations after the region flatten it, sum it from zero and scale by a quarter.
-/
import proofs.«163661_j61521111547944_1_alg».proof.Proof.KI.Pieces
import proofs.«163661_j61521111547944_1_alg».proof.Proof.KI.Payload
import proofs.«163661_j61521111547944_1_alg».proof.Proof.KI.Blocks
import Idealize.ShloMosaic.Lib.ValueIdxRank1

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- The two arguments' point lists on core c. -/
abbrev P (c : Dev nD) : Fin 4096 → Fin 3 → EReal := PairLoss.pts (m ((c.tc : Thread nD τ).loc main_arg0))
abbrev Q (c : Dev nD) : Fin 4096 → Fin 3 → EReal := PairLoss.pts (m ((c.tc : Thread nD τ).loc main_arg1))

/-- The tile's row sums of the blocks grid point t is handed: row r is the tile sum of row 512·(t/8) + r over
    column tile t % 8. -/
theorem tileVec_blocks (c : Dev nD) (t : Fin cfg0.N) (ht : t.val < 64) (r : Fin 512) :
    tileVec (F := Ideal) (iblk m c 0 t) (iblk m c 1 t) (iblk m c 2 t) (iblk m c 3 t) (ix1 r)
      = PairLoss.tileSum (P m c) (Q m c) ⟨512 * (t.val / 8) + r.val, by omega⟩ ⟨t.val % 8, by omega⟩ := by
  show tileVecI (iblk m c 0 t) (iblk m c 1 t) (iblk m c 2 t) (iblk m c 3 t) (ix1 r) = _
  rw [tileVecI_apply]
  unfold PairLoss.tileRow PairLoss.tileSum
  refine Finset.sum_congr rfl fun k _ => ?_
  rw [PairLoss.term_eq_term4]
  have e0 : PairLoss.rowOf (iblk m c 0 t) r = P m c ⟨512 * (t.val / 8) + r.val, by omega⟩ :=
    funext fun cc => iblk0_apply m c t ht r cc
  have e1 : PairLoss.rowOf (iblk m c 1 t) k = P m c ⟨512 * (t.val % 8) + k.val, by omega⟩ :=
    funext fun cc => iblk1_apply m c t ht k cc
  have e2 : PairLoss.rowOf (iblk m c 2 t) r = Q m c ⟨512 * (t.val / 8) + r.val, by omega⟩ :=
    funext fun cc => iblk2_apply m c t ht r cc
  have e3 : PairLoss.rowOf (iblk m c 3 t) k = Q m c ⟨512 * (t.val % 8) + k.val, by omega⟩ :=
    funext fun cc => iblk3_apply m c t ht k cc
  rw [e0, e1, e2, e3]

/-! ## Sums over the column tiles up to a given one -/

/-- Up to column tile 0 there is the one tile. -/
theorem sum_upto_zero (f : Fin 8 → EReal) :
    ∑ jt ∈ Finset.univ.filter (fun jt : Fin 8 => jt.val ≤ 0), f jt = f 0 := by
  have hset : Finset.univ.filter (fun jt : Fin 8 => jt.val ≤ 0) = {(0 : Fin 8)} := by
    ext jt
    simp only [Finset.mem_filter, Finset.mem_univ, true_and, Finset.mem_singleton, Fin.ext_iff, Fin.val_zero]
    omega
  rw [hset, Finset.sum_singleton]

/-- One more column tile adds its term. -/
theorem sum_upto_succ (f : Fin 8 → EReal) (k : ℕ) (hk : k + 1 < 8) :
    ∑ jt ∈ Finset.univ.filter (fun jt : Fin 8 => jt.val ≤ k + 1), f jt
      = (∑ jt ∈ Finset.univ.filter (fun jt : Fin 8 => jt.val ≤ k), f jt) + f ⟨k + 1, hk⟩ := by
  have hset : Finset.univ.filter (fun jt : Fin 8 => jt.val ≤ k + 1)
      = insert (⟨k + 1, hk⟩ : Fin 8) (Finset.univ.filter (fun jt : Fin 8 => jt.val ≤ k)) := by
    ext jt
    simp only [Finset.mem_filter, Finset.mem_univ, true_and, Finset.mem_insert, Fin.ext_iff]
    omega
  have hnm : (⟨k + 1, hk⟩ : Fin 8) ∉ Finset.univ.filter (fun jt : Fin 8 => jt.val ≤ k) :=
    fun h => absurd (Finset.mem_filter.mp h).2 (Nat.not_succ_le_self k)
  rw [hset, Finset.sum_insert hnm, add_comm]

/-- Up to column tile 7 is every tile. -/
theorem sum_upto_seven (f : Fin 8 → EReal) :
    ∑ jt ∈ Finset.univ.filter (fun jt : Fin 8 => jt.val ≤ 7), f jt = ∑ jt : Fin 8, f jt := by
  rw [Finset.filter_true_of_mem fun jt _ => by have := jt.isLt; omega]

/-! ## The scratch, point by point -/

/-- At column tile 0 the scratch is reset and then holds the tile's row sums. -/
theorem scratch_step_A (c : Dev nD) (t : Fin cfg0.N) (ht : t.val < 64) (h0 : t.val % 8 = 0) (r : Fin 512) :
    ((outsAt0 m c t.val t.isLt).2 : S512x1.Idx → EReal) (ix2 r (0 : Fin 1))
      = 0 + PairLoss.tileSum (P m c) (Q m c) ⟨512 * (t.val / 8) + r.val, by omega⟩ ⟨t.val % 8, by omega⟩ := by
  have h1 : ¬t.val % 8 = 7 := by omega
  rw [outsAt0_A m c t h0 h1]
  dsimp only
  rw [sout0_A_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)]
  rw [pay1_apply, pay2_apply, tileVec_blocks m c t ht r]

/-- At a later column tile the tile's row sums are added to what the point before left. -/
theorem scratch_step_BC (c : Dev nD) (t : Fin cfg0.N) (ht : t.val < 64) (h0 : ¬t.val % 8 = 0) (r : Fin 512)
    (n : ℕ) (hn : n < cfg0.N) (hnt : n = t.val - 1) :
    ((outsAt0 m c t.val t.isLt).2 : S512x1.Idx → EReal) (ix2 r (0 : Fin 1))
      = ((outsAt0 m c n hn).2 : S512x1.Idx → EReal) (ix2 r (0 : Fin 1))
        + PairLoss.tileSum (P m c) (Q m c) ⟨512 * (t.val / 8) + r.val, by omega⟩ ⟨t.val % 8, by omega⟩ := by
  subst hnt
  by_cases h1 : t.val % 8 = 7
  · rw [outsAt0_C m c t h0 h1]
    dsimp only
    rw [sout0_C_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2]
    rw [pay1_apply, tileVec_blocks m c t ht r]
  · rw [outsAt0_B m c t h0 h1]
    dsimp only
    rw [sout0_B_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2]
    rw [pay1_apply, tileVec_blocks m c t ht r]

/-- The scratch after position n, by induction on the position. -/
theorem scratch_aux (c : Dev nD) : ∀ (n : ℕ) (hn : n < cfg0.N) (ht : n < 64) (r : Fin 512),
    ((outsAt0 m c n hn).2 : S512x1.Idx → EReal) (ix2 r (0 : Fin 1))
      = ∑ jt ∈ Finset.univ.filter (fun jt : Fin 8 => jt.val ≤ n % 8),
          PairLoss.tileSum (P m c) (Q m c) ⟨512 * (n / 8) + r.val, by omega⟩ jt := by
  intro n
  induction n with
  | zero =>
    intro hn ht r
    refine (scratch_step_A m c ⟨0, hn⟩ ht rfl r).trans ?_
    rw [zero_add]
    exact (sum_upto_zero _).symm
  | succ n ih =>
    intro hn ht r
    by_cases h0 : (n + 1) % 8 = 0
    · refine (scratch_step_A m c ⟨n + 1, hn⟩ ht h0 r).trans ?_
      rw [zero_add]
      have e : (⟨(n + 1) % 8, by omega⟩ : Fin 8) = 0 := Fin.ext h0
      show PairLoss.tileSum (P m c) (Q m c) ⟨512 * ((n + 1) / 8) + r.val, by omega⟩ ⟨(n + 1) % 8, by omega⟩ = _
      rw [e, h0]
      exact (sum_upto_zero _).symm
    · refine (scratch_step_BC m c ⟨n + 1, hn⟩ ht h0 r n (Nat.lt_of_succ_lt hn) rfl).trans ?_
      rw [ih (Nat.lt_of_succ_lt hn) (by omega) r]
      have hrow : (⟨512 * (n / 8) + r.val, by omega⟩ : Fin 4096) = ⟨512 * ((n + 1) / 8) + r.val, by omega⟩ :=
        Fin.ext (by show 512 * (n / 8) + r.val = 512 * ((n + 1) / 8) + r.val; omega)
      have hk : (n + 1) % 8 = n % 8 + 1 := by omega
      show (∑ jt ∈ Finset.univ.filter (fun jt : Fin 8 => jt.val ≤ n % 8),
          PairLoss.tileSum (P m c) (Q m c) ⟨512 * (n / 8) + r.val, by omega⟩ jt)
        + PairLoss.tileSum (P m c) (Q m c) ⟨512 * ((n + 1) / 8) + r.val, by omega⟩ ⟨(n + 1) % 8, by omega⟩ = _
      rw [hrow]
      have e : (⟨(n + 1) % 8, by omega⟩ : Fin 8) = ⟨n % 8 + 1, by omega⟩ := Fin.ext hk
      rw [e, hk]
      exact (sum_upto_succ _ (n % 8) (by omega)).symm

/-- The scratch after grid point t: the row's tile sums over the column tiles up to t's. -/
theorem scratch_apply (c : Dev nD) (t : Fin cfg0.N) (ht : t.val < 64) (r : Fin 512) :
    ((outsAt0 m c t.val t.isLt).2 : S512x1.Idx → EReal) (ix2 r (0 : Fin 1))
      = ∑ jt ∈ Finset.univ.filter (fun jt : Fin 8 => jt.val ≤ t.val % 8),
          PairLoss.tileSum (P m c) (Q m c) ⟨512 * (t.val / 8) + r.val, by omega⟩ jt :=
  scratch_aux m c t.val t.isLt ht r

/-- What the result's staging buffer holds after a grid point of column tile 7: the rows' whole sums. -/
theorem staged_apply (c : Dev nD) (t : Fin cfg0.N) (ht : t.val < 64) (h7 : t.val % 8 = 7) (r : Fin 512) :
    ((outsAt0 m c t.val t.isLt).1 : S512x1.Idx → EReal) (ix2 r (0 : Fin 1))
      = PairLoss.rowSum (P m c) (Q m c) ⟨512 * (t.val / 8) + r.val, by omega⟩ := by
  have h0 : ¬t.val % 8 = 0 := by omega
  have hz : 0 < t.val := by omega
  rw [outsAt0_C m c t h0 h7]
  dsimp only
  rw [out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2]
  rw [pay1_apply, tileVec_blocks m c t ht r]
  rw [scratch_aux m c (t.val - 1) (Nat.lt_of_le_of_lt (Nat.sub_le _ _) t.isLt) (by omega) r]
  have hrow : (⟨512 * ((t.val - 1) / 8) + r.val, by omega⟩ : Fin 4096) = ⟨512 * (t.val / 8) + r.val, by omega⟩ :=
    Fin.ext (by show 512 * ((t.val - 1) / 8) + r.val = 512 * (t.val / 8) + r.val; omega)
  have hk : (t.val - 1) % 8 = 6 := by omega
  have e : (⟨t.val % 8, by omega⟩ : Fin 8) = ⟨6 + 1, by omega⟩ := Fin.ext h7
  rw [hrow, hk, e]
  unfold PairLoss.rowSum
  rw [← sum_upto_seven, sum_upto_succ _ 6 (by omega)]

/-! ## The result's array -/

/-- The result's array as a function of its index: row by row the row sums. -/
def G4 (c : Dev nD) : S4096x1.Idx → EReal := fun idx => PairLoss.rowSum (P m c) (Q m c) (idx 0)

/-- An index of an [n, 1] shape is its row and column 0. -/
theorem eq_ix2_unit {n : ℕ} (y : (⟨2, ![n, 1]⟩ : Shape).Idx) : y = ix2 (y 0) (0 : Fin 1) :=
  (eq_ix2 y).trans (congrArg (ix2 (y 0)) (Fin.ext (by have := idx2_lt1 y; show (y 1).val = 0; omega)))

/-- Window 4's block index at a point is the point's row tile. -/
theorem idx4 : ∀ t : Fin cfg0.N, win0_4.index t (0 : Fin 2) = t.val / 8 ∧ win0_4.index t (1 : Fin 2) = 0 :=
  (by decide +kernel : ∀ t : Fin grid0.N, _)

/-- An index of the result's array is in point t's block iff each coordinate is in the block's range. -/
theorem mem_blk4 (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v6).slice (win0_4.rect t)).set ↔ _
  rw [View.set_slice_whole, Rect.mem_set_unit]
  exact Iff.rfl

/-- What a point of column tile 7 writes back is its block of the row sums. -/
theorem flushed4_eq (c : Dev nD) (t : Fin cfg0.N) (hf : (cfg0.win 4).flush t = true) :
    (dats m 0 c).flushed 4 t = ((cfg0.win 4).blk t).view.read (Elt Ideal) (G4 m c) := by
  have h7 : t.val % 8 = 7 := (flush0_4 t).mp hf
  have ht : t.val < 64 := lt_of_lt_of_eq t.isLt (show cfg0.N = 64 from N_0)
  show (cfg0.win 4).cut (grid0.coords t) ((dats m 0 c).after 4 t) = _
  rw [after0_4]
  have key : ∀ y : S512x1.Idx, ((outsAt0 m c t.val t.isLt).1 : S512x1.Idx → EReal) y = G4 m c (((cfg0.win 4).blk t).view.emb y) := by
    intro y
    obtain ⟨r, rfl⟩ : ∃ r : Fin 512, y = ix2 r (0 : Fin 1) := ⟨y 0, eq_ix2_unit y⟩
    rw [staged_apply m c t ht h7 r]
    unfold G4
    refine congrArg (PairLoss.rowSum (P m c) (Q m c)) (Fin.ext ?_)
    show 512 * (t.val / 8) + r.val = win0_4.index t (0 : Fin 2) * 512 + 1 * r.val
    rw [(idx4 t).1]; omega
  funext y
  exact key y

/-- Every row of the result's array lies in the block of its row tile's last point. -/
theorem cover4 (i : S4096x1.Idx) :
    ∃ t : Fin cfg0.N, (cfg0.win 4).flush t = true ∧ i ∈ ((cfg0.win 4).blk t).view.set := by
  have hi0 : (i 0).val < 4096 := idx2_lt0 i
  have hi1 : (i 1).val < 1 := idx2_lt1 i
  have hN : cfg0.N = 64 := N_0
  have hlt : 8 * ((i 0).val / 512) + 7 < cfg0.N := by rw [hN]; omega
  obtain ⟨t, ht⟩ : ∃ t : Fin cfg0.N, t.val = 8 * ((i 0).val / 512) + 7 := ⟨⟨_, hlt⟩, rfl⟩
  refine ⟨t, (flush0_4 t).mpr (by omega), ?_⟩
  rw [mem_blk4]
  obtain ⟨e0, e1⟩ := idx4 t
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1 ≤ (i 1).val ∧ (i 1).val < win0_4.index t (1 : Fin 2) * 1 + 1
    omega

/-- The result's array after the run: row by row the row sums. -/
theorem arrAt_apply (c : Dev nD) (R : Fin 4096) :
    ((dats m 0 c).arrAt 4 cfg0.N : S4096x1.Idx → EReal) (ix2 R (0 : Fin 1)) = PairLoss.rowSum (P m c) (Q m c) R := by
  rw [(dats m 0 c).arrAt_eq_of_cover 4 (G4 m c) (fun t hf => flushed4_eq m c t hf) cover4]
  rfl

/-! ## After the region -/

/-- The host operations after the region, read at the ideal values. -/
theorem tailOut_apply (o : Vec Ideal S4096x1 .f32) (i : S_.Idx) :
    tailOut (F := Ideal) o i = PairLoss.wq * (PairLoss.w0 + ∑ R : Fin 4096, o (ix2 R (0 : Fin 1))) := by
  unfold tailOut
  rw [mulf_apply, constant_apply]
  simp only [Host.reduceAdd, Ideal.hostReduceAdd_def]
  rw [Ideal.hostReduceAdd_total reducesTo_S4096_S_d0 (fun b => b.elim0)]
  rw [constant_apply]
  refine congrArg (fun s => PairLoss.wq * (PairLoss.w0 + s)) ?_
  rw [← Equiv.sum_comp (idxEquiv1 (n := 4096)).symm]
  refine Finset.sum_congr rfl fun R _ => ?_
  show shapeCast S4096 o shapeCasts_S4096x1_S4096 (ix1 R) = o (ix2 R (0 : Fin 1))
  exact shapeCast_apply o _ (ix1 R) (ix2 R (0 : Fin 1)) (by
    rw [Shape.rowMajor_val_two, Shape.rowMajor_val_one]; show R.val * 1 + 0 = R.val; omega)

/-- The kernel's result is `PairLoss.total` of the two arguments' point lists. -/
theorem kernel_value (c : Dev nD) (i : S_.Idx) :
    tailOut (F := Ideal) ((dats m 0 c).arrAt 4 cfg0.N) i = PairLoss.total (P m c) (Q m c) := by
  rw [tailOut_apply]
  unfold PairLoss.total
  exact congrArg (fun s => PairLoss.wq * (PairLoss.w0 + s)) (Finset.sum_congr rfl fun R _ => arrAt_apply m c R)

end Cert.KernelIdeal.HandValue

end
-- ==== Proof.SpecRef.lean ====
/-
  The reference's arrangement of the same result: each pair's term with the two halvings written as quotients by 2,
  each row summed whole from zero and halved, the halved rows summed from zero and halved again.
-/
import proofs.«163661_j61521111547944_1_alg».proof.Proof.Spec

noncomputable section

namespace PairLoss

open Idealize.ShloMosaic

/-- Squared distance as the reference sums it: zero plus the sum over the three coordinates. -/
def sqdR (p : Fin 4096 → Fin 3 → EReal) (i j : Fin 4096) : EReal :=
  w0 + ∑ c : Fin 3, (p i c - p j c) * (p i c - p j c)

/-- The pair's term with the halvings as quotients by the word 2.0. -/
def termR (p q : Fin 4096 → Fin 3 → EReal) (i j : Fin 4096) : EReal :=
  (w2 * min (Ideal.div (gsqrt (sqdR p i j)) w2) w1 - w1) * max (w1 - Ideal.div (gsqrt (sqdR q i j)) w2) w0

/-- The reference's result: half of (zero plus the sum over rows of half of (zero plus the row's terms)). -/
def refForm (p q : Fin 4096 → Fin 3 → EReal) : EReal :=
  wh * (w0 + ∑ i : Fin 4096, wh * (w0 + ∑ j : Fin 4096, termR p q i j))

end PairLoss

end
-- ==== Proof.RefValue.lean ====
/-
  The reference program's result, read stage by stage at the ideal values, is the reference's arrangement of the
  result over the two arguments' point lists.

  The stages are read from the last one backwards.  An argument's reshape and transpose give its point list; the two
  broadcasts, the difference, the square and the sum over the three coordinates give a pair's squared distance; the
  comparison with zero and the two selections around the root give the guarded root; the divisions by two, the
  minimum, the maximum and the product give the pair's term; the sum along a row, the halving, the sum over the rows,
  the reshape to a scalar and the last halving give the result.
-/
import proofs.«163661_j61521111547944_1_alg».proof.Proof.SpecRef
import proofs.«163661_j61521111547944_1_alg».proof.Proof.Gen.ReferenceIdeal.Read

noncomputable section

namespace PairLoss

open Idealize.ShloMosaic Cert.ReferenceIdeal

namespace RefStage

open Idealize.ShloMosaic.ValueIdx (ix1 ix2 ix3 ix4)

/-- An argument of the program at the ideal values. -/
abbrev Arg := (⟨S1x3x64x64, .f32⟩ : BufTy).Contents (Elt Ideal)

/-! ### The point lists -/

/-- The transposed reshape of the first argument, at point n and coordinate c, is the argument's point list there:
    the flat position c · 4096 + n of the reshape splits into plane c, row n / 64 and column n % 64. -/
theorem v1_pts (x0 : Arg) (n : Fin 4096) (c : Fin 3) :
    Read.val_main_v1 (F := Ideal) x0 (ix3 (0 : Fin 1) n c) = pts x0 n c := by
  rw [Read.val_main_v1_apply, Read.val_main_v0_apply]
  unfold pts
  refine congrArg x0 (funext fun a => Fin.ext ?_)
  match a with
  | ⟨0, _⟩ => rfl
  | ⟨1, _⟩ =>
    show ((0 * 3 + c.val) * 4096 + n.val) / 4096 % 3 = c.val
    omega
  | ⟨2, _⟩ =>
    show ((0 * 3 + c.val) * 4096 + n.val) / 64 % 64 = n.val / 64
    omega
  | ⟨3, _⟩ =>
    show ((0 * 3 + c.val) * 4096 + n.val) % 64 = n.val % 64
    omega

/-- The same for the second argument. -/
theorem v3_pts (x1 : Arg) (n : Fin 4096) (c : Fin 3) :
    Read.val_main_v3 (F := Ideal) x1 (ix3 (0 : Fin 1) n c) = pts x1 n c := by
  rw [Read.val_main_v3_apply, Read.val_main_v2_apply]
  unfold pts
  refine congrArg x1 (funext fun a => Fin.ext ?_)
  match a with
  | ⟨0, _⟩ => rfl
  | ⟨1, _⟩ =>
    show ((0 * 3 + c.val) * 4096 + n.val) / 4096 % 3 = c.val
    omega
  | ⟨2, _⟩ =>
    show ((0 * 3 + c.val) * 4096 + n.val) / 64 % 64 = n.val / 64
    omega
  | ⟨3, _⟩ =>
    show ((0 * 3 + c.val) * 4096 + n.val) % 64 = n.val % 64
    omega

/-! ### The squared distances -/

/-- The first argument's row broadcasts, read at pair (i, j) and coordinate k, reach point i. -/
theorem idx_left0 (i j : Fin 4096) (k : Fin 3) :
    Read.idx_main_v4 (Read.idx_main_v6 (Read.idx_main_v10 (ix3 (0 : Fin 1) i j) k)) = ix3 (0 : Fin 1) i k := by
  funext a
  match a with
  | ⟨0, _⟩ => rfl
  | ⟨1, _⟩ => rfl
  | ⟨2, _⟩ => rfl

/-- The first argument's column broadcasts, read at pair (i, j) and coordinate k, reach point j. -/
theorem idx_right0 (i j : Fin 4096) (k : Fin 3) :
    Read.idx_main_v5 (Read.idx_main_v7 (Read.idx_main_v10 (ix3 (0 : Fin 1) i j) k)) = ix3 (0 : Fin 1) j k := by
  funext a
  match a with
  | ⟨0, _⟩ => rfl
  | ⟨1, _⟩ => rfl
  | ⟨2, _⟩ => rfl

/-- The second argument's row broadcasts reach point i. -/
theorem idx_left1 (i j : Fin 4096) (k : Fin 3) :
    Read.idx_main_v16 (Read.idx_main_v18 (Read.idx_main_v22 (ix3 (0 : Fin 1) i j) k)) = ix3 (0 : Fin 1) i k := by
  funext a
  match a with
  | ⟨0, _⟩ => rfl
  | ⟨1, _⟩ => rfl
  | ⟨2, _⟩ => rfl

/-- The second argument's column broadcasts reach point j. -/
theorem idx_right1 (i j : Fin 4096) (k : Fin 3) :
    Read.idx_main_v17 (Read.idx_main_v19 (Read.idx_main_v22 (ix3 (0 : Fin 1) i j) k)) = ix3 (0 : Fin 1) j k := by
  funext a
  match a with
  | ⟨0, _⟩ => rfl
  | ⟨1, _⟩ => rfl
  | ⟨2, _⟩ => rfl

/-- The squared-difference stage of the first argument at pair (i, j), coordinate k. -/
theorem v9_sq (x0 : Arg) (i j : Fin 4096) (k : Fin 3) :
    Read.val_main_v9 (F := Ideal) x0 (Read.idx_main_v10 (ix3 (0 : Fin 1) i j) k)
      = (pts x0 i k - pts x0 j k) * (pts x0 i k - pts x0 j k) := by
  rw [Read.val_main_v9_apply, Read.val_main_v8_apply, Read.val_main_v6_apply, Read.val_main_v7_apply,
    Read.val_main_v4_apply, Read.val_main_v5_apply, idx_left0, idx_right0, v1_pts, v1_pts]
  rfl

/-- The squared-difference stage of the second argument at pair (i, j), coordinate k. -/
theorem v21_sq (x1 : Arg) (i j : Fin 4096) (k : Fin 3) :
    Read.val_main_v21 (F := Ideal) x1 (Read.idx_main_v22 (ix3 (0 : Fin 1) i j) k)
      = (pts x1 i k - pts x1 j k) * (pts x1 i k - pts x1 j k) := by
  rw [Read.val_main_v21_apply, Read.val_main_v20_apply, Read.val_main_v18_apply, Read.val_main_v19_apply,
    Read.val_main_v16_apply, Read.val_main_v17_apply, idx_left1, idx_right1, v3_pts, v3_pts]
  rfl

/-- The first argument's reduced stage at pair (i, j) is the squared distance of its points i and j. -/
theorem v10_sqd (x0 : Arg) (i j : Fin 4096) :
    Read.val_main_v10 (F := Ideal) x0 (ix3 (0 : Fin 1) i j) = sqdR (pts x0) i j := by
  rw [Read.val_main_v10_apply, Read.val_main_cst_apply]
  unfold sqdR
  exact congrArg (_ + ·) (Finset.sum_congr rfl fun k _ => v9_sq x0 i j k)

/-- The second argument's reduced stage at pair (i, j) is the squared distance of its points i and j. -/
theorem v22_sqd (x1 : Arg) (i j : Fin 4096) :
    Read.val_main_v22 (F := Ideal) x1 (ix3 (0 : Fin 1) i j) = sqdR (pts x1) i j := by
  rw [Read.val_main_v22_apply, Read.val_main_cst_3_apply]
  unfold sqdR
  exact congrArg (_ + ·) (Finset.sum_congr rfl fun k _ => v21_sq x1 i j k)

/-! ### The guarded roots -/

/-- The first argument's guarded root at pair (i, j): the comparison with the broadcast zero, the inner selection
    against the broadcast one, the root, and the outer selection against the broadcast zero. -/
theorem v15_gsqrt (x0 : Arg) (i j : Fin 4096) :
    Read.val_main_v15 (F := Ideal) x0 (ix3 (0 : Fin 1) i j) = gsqrt (sqdR (pts x0) i j) := by
  rw [Read.val_main_v15_apply, Read.val_main_v14_apply, Read.val_main_v13_apply, Read.val_main_v12_apply,
    Read.val_main_v11_apply, Read.val_main_cst_0_apply,
    Read.val_main_call0_v1_apply, Read.val_main_call0_v0_apply, Read.val_main_cst_1_apply,
    Read.val_main_call1_v1_apply, Read.val_main_call1_v0_apply, Read.val_main_cst_2_apply, v10_sqd]
  rfl

/-- The second argument's guarded root at pair (i, j). -/
theorem v27_gsqrt (x1 : Arg) (i j : Fin 4096) :
    Read.val_main_v27 (F := Ideal) x1 (ix3 (0 : Fin 1) i j) = gsqrt (sqdR (pts x1) i j) := by
  rw [Read.val_main_v27_apply, Read.val_main_v26_apply, Read.val_main_v25_apply, Read.val_main_v24_apply,
    Read.val_main_v23_apply, Read.val_main_cst_4_apply,
    Read.val_main_call2_v1_apply, Read.val_main_call2_v0_apply, Read.val_main_cst_5_apply,
    Read.val_main_call3_v1_apply, Read.val_main_call3_v0_apply, Read.val_main_cst_6_apply, v22_sqd]
  rfl

/-! ### The pair's term -/

/-- The left factor at pair (i, j): twice the smaller of the halved root and one, less one. -/
theorem v41_left (x0 : Arg) (i j : Fin 4096) :
    Read.val_main_v41 (F := Ideal) x0 (ix3 (0 : Fin 1) i j)
      = w2 * min (Ideal.div (gsqrt (sqdR (pts x0) i j)) w2) w1 - w1 := by
  rw [Read.val_main_v41_apply, Read.val_main_v39_apply, Read.val_main_v38_apply, Read.val_main_cst_12_apply,
    Read.val_main_v31_apply, Read.val_main_v29_apply, Read.val_main_v28_apply, Read.val_main_cst_7_apply,
    Read.val_main_v30_apply, Read.val_main_cst_8_apply, Read.val_main_v40_apply, Read.val_main_cst_13_apply,
    v15_gsqrt]
  rfl

/-- The right factor at pair (i, j): the larger of one less the halved root and zero. -/
theorem v37_right (x1 : Arg) (i j : Fin 4096) :
    Read.val_main_v37 (F := Ideal) x1 (ix3 (0 : Fin 1) i j)
      = max (w1 - Ideal.div (gsqrt (sqdR (pts x1) i j)) w2) w0 := by
  rw [Read.val_main_v37_apply, Read.val_main_v35_apply, Read.val_main_v34_apply, Read.val_main_cst_10_apply,
    Read.val_main_v33_apply, Read.val_main_v32_apply, Read.val_main_cst_9_apply,
    Read.val_main_v36_apply, Read.val_main_cst_11_apply, v27_gsqrt]
  rfl

/-- The product stage at pair (i, j) is the pair's term. -/
theorem v42_term (x0 x1 : Arg) (i j : Fin 4096) :
    Read.val_main_v42 (F := Ideal) x0 x1 (ix3 (0 : Fin 1) i j) = termR (pts x0) (pts x1) i j := by
  rw [Read.val_main_v42_apply, v41_left, v37_right]
  rfl

/-! ### The sums -/

/-- The row sum's operand index at row i, column k, is the pair (i, k). -/
theorem idx_row (i k : Fin 4096) : Read.idx_main_v43 (ix2 (0 : Fin 1) i) k = ix3 (0 : Fin 1) i k := by
  funext a
  match a with
  | ⟨0, _⟩ => rfl
  | ⟨1, _⟩ => rfl
  | ⟨2, _⟩ => rfl

/-- Row i's stage after the halving: half of (zero plus the row's terms). -/
theorem v45_row (x0 x1 : Arg) (i : Fin 4096) :
    Read.val_main_v45 (F := Ideal) x0 x1 (ix2 (0 : Fin 1) i)
      = wh * (w0 + ∑ j : Fin 4096, termR (pts x0) (pts x1) i j) := by
  rw [Read.val_main_v45_apply, Read.val_main_v44_apply, Read.val_main_cst_15_apply, Read.val_main_v43_apply,
    Read.val_main_cst_14_apply]
  show wh * (w0 + ∑ k : Fin 4096, _) = _
  refine congrArg (wh * ·) (congrArg (w0 + ·) (Finset.sum_congr rfl fun k _ => ?_))
  rw [idx_row, v42_term]

/-- The sum over the rows reads the halved row stage at row k. -/
theorem idx_col (k : Fin 4096) : Read.idx_main_v46 (ix1 (0 : Fin 1)) k = ix2 (0 : Fin 1) k := by
  funext a
  match a with
  | ⟨0, _⟩ => rfl
  | ⟨1, _⟩ => rfl

/-- The sum over the rows, from zero, of the halved row sums. -/
theorem v46_sum (x0 x1 : Arg) :
    Read.val_main_v46 (F := Ideal) x0 x1 (ix1 (0 : Fin 1))
      = w0 + ∑ i : Fin 4096, wh * (w0 + ∑ j : Fin 4096, termR (pts x0) (pts x1) i j) := by
  rw [Read.val_main_v46_apply, Read.val_main_cst_16_apply]
  show w0 + ∑ k : Fin 4096, _ = _
  refine congrArg (w0 + ·) (Finset.sum_congr rfl fun k _ => ?_)
  rw [idx_col, v45_row]

/-- The reshape of the one-element array to a scalar keeps its one element: the one-element array has one index. -/
theorem v47_eq (x0 x1 : Arg) (i : S_.Idx) :
    Read.val_main_v47 (F := Ideal) x0 x1 i = Read.val_main_v46 (F := Ideal) x0 x1 (ix1 (0 : Fin 1)) := by
  unfold Read.val_main_v47 shapeCast
  refine congrArg _ (funext fun a => ?_)
  match a with
  | ⟨0, _⟩ => exact Subsingleton.elim (α := Fin 1) _ _

end RefStage

open RefStage in
/-- The last stage of the reference, at its one index, is `refForm` of the arguments' point lists. -/
theorem ref_value (x0 x1 : (⟨S1x3x64x64, .f32⟩ : BufTy).Contents (Elt Ideal)) (i : S_.Idx) :
    Cert.ReferenceIdeal.Read.val_main_v48 (F := Ideal) x0 x1 i = refForm (pts x0) (pts x1) := by
  rw [Read.val_main_v48_apply, Read.val_main_cst_17_apply, v47_eq, v46_sum]
  rfl

end PairLoss

end
-- ==== Proof.Algebra.lean ====
/-
  The two arrangements of the result are one extended real.
-/
import proofs.«163661_j61521111547944_1_alg».proof.Proof.SpecRef
import Mathlib.Data.EReal.Operations
import Mathlib.Algebra.BigOperators.Fin
import Mathlib.Logic.Equiv.Fin.Basic

noncomputable section

namespace PairLoss

open Idealize.ShloMosaic

/-! ### The words -/

/-- The word 0.0 is the extended real 0. -/
theorem w0_eq : w0 = 0 := Ideal.ofBits_zero_f32

/-- The word 2.0 is the real 2. -/
theorem w2_eq : w2 = ((2 : ℝ) : EReal) := by
  simp [Ideal.ofBits, Ideal.ieee, -EReal.coe_mul]; norm_num

/-- The word 0.5 is the real 1/2. -/
theorem wh_eq : wh = ((1 / 2 : ℝ) : EReal) := by
  simp [Ideal.ofBits, Ideal.ieee, -EReal.coe_mul]; norm_num

/-- The word 0.25 is the real 1/4. -/
theorem wq_eq : wq = ((1 / 4 : ℝ) : EReal) := by
  simp [Ideal.ofBits, Ideal.ieee, -EReal.coe_mul]; norm_num

/-- The quotient by 2 is the product with one half, at the infinities too. -/
theorem div_w2 (x : EReal) : Ideal.div x w2 = x * wh := by
  rw [w2_eq, wh_eq]; exact Ideal.div_coe (by norm_num) x

/-- A half of a half is a quarter. -/
theorem wh_mul_wh : wh * wh = wq := by
  rw [wh_eq, wq_eq, ← EReal.coe_mul]; norm_num

theorem wh_nonneg : (0 : EReal) ≤ wh := by
  rw [wh_eq]; exact_mod_cast (by norm_num : (0 : ℝ) ≤ 1 / 2)

theorem wh_ne_top : wh ≠ ⊤ := by
  rw [wh_eq]; exact EReal.coe_ne_top _

theorem wq_nonneg : (0 : EReal) ≤ wq := by
  rw [wq_eq]; exact_mod_cast (by norm_num : (0 : ℝ) ≤ 1 / 4)

theorem wq_ne_top : wq ≠ ⊤ := by
  rw [wq_eq]; exact EReal.coe_ne_top _

/-! ### The pair's term -/

/-- The reference's sum over the three coordinates is the kernel's three additions in order. -/
theorem sqdR_eq (p : Fin 4096 → Fin 3 → EReal) (i j : Fin 4096) : sqdR p i j = sqd p i j := by
  unfold sqdR sqd
  rw [Fin.sum_univ_three]
  simp only [add_assoc]

/-- The two spellings of a pair's term agree. -/
theorem termR_eq (p q : Fin 4096 → Fin 3 → EReal) (i j : Fin 4096) : termR p q i j = term p q i j := by
  unfold termR term
  rw [sqdR_eq, sqdR_eq, div_w2, div_w2]

/-! ### Sums -/

/-- A sum over 4096 columns is the sum over eight tiles of the sums over each tile's 512 columns. -/
theorem sum_tiles {M : Type*} [AddCommMonoid M] (f : Fin 4096 → M) :
    ∑ j : Fin 4096, f j = ∑ jt : Fin 8, ∑ k : Fin 512, f ⟨512 * jt.val + k.val, by omega⟩ := by
  rw [← Equiv.sum_comp (finProdFinEquiv : Fin 8 × Fin 512 ≃ Fin 4096) f, Fintype.sum_prod_type]
  refine Finset.sum_congr rfl fun jt _ => Finset.sum_congr rfl fun k _ => ?_
  congr 1
  apply Fin.ext
  simp only [finProdFinEquiv_apply_val]
  omega

/-- A finite nonnegative factor distributes over any finite sum of extended reals. -/
theorem mul_sum_of_nonneg {ι : Type*} (s : Finset ι) {c : EReal} (h0 : 0 ≤ c) (ht : c ≠ ⊤)
    (a : ι → EReal) : c * ∑ i ∈ s, a i = ∑ i ∈ s, c * a i := by
  classical
  induction s using Finset.induction_on with
  | empty => simp
  | insert i s hi ih =>
    rw [Finset.sum_insert hi, Finset.sum_insert hi, EReal.left_distrib_of_nonneg_of_ne_top h0 ht, ih]

/-- The reference's arrangement equals the kernel's: the quotient by 2 is the product with one half, a row's 4096
    terms are its eight tiles of 512, and a half of a sum of halves is a quarter of the sum (a finite nonnegative
    factor distributes over any sum of extended reals). -/
theorem refForm_eq_total (p q : Fin 4096 → Fin 3 → EReal) : refForm p q = total p q := by
  unfold refForm total rowSum tileSum
  simp only [termR_eq, w0_eq, zero_add]
  rw [mul_sum_of_nonneg _ wh_nonneg wh_ne_top, mul_sum_of_nonneg _ wq_nonneg wq_ne_top]
  refine Finset.sum_congr rfl fun r _ => ?_
  rw [← mul_assoc, wh_mul_wh, sum_tiles]

end PairLoss

end
-- ==== Proof.lean ====
/-
  A pairwise-distance loss over two lists of 4096 points of three coordinates: for every pair (i, j) the term
  (2 · min (d₁(i,j) / 2, 1) − 1) · max (1 − d₂(i,j) / 2, 0), d the Euclidean distance guarded at zero, and the result a
  quarter of the sum of the terms over all pairs.

  The kernel walks an 8 × 8 grid of 512 × 512 tiles: a scratch buffer accumulates each row's terms from column tile
  to column tile and is copied out at the last one; the host then sums the 4096 row sums and scales by a quarter.  The
  reference sums each row whole and halves it, sums the halves and halves again.  Over the extended reals the two are
  one value: a row's 4096 terms are its eight tiles of 512, the quotient by 2 is the product with one half, and a
  finite nonnegative factor distributes over any sum of extended reals, so that no finiteness of the terms is needed
  and the precondition is not opened.

  The three frames: the kernel's program at the word-level instance and at the ideal instance run to the end with the
  arguments unchanged by one run theorem, generic in the float family; the reference's frame is its run with the
  result dropped.  The idealization rewrote nothing, so `preserves` is trivial.
-/
import proofs.«163661_j61521111547944_1_alg».proof.Defs
import proofs.«163661_j61521111547944_1_alg».proof.Proof.Gen.Kernel
import proofs.«163661_j61521111547944_1_alg».proof.Proof.Gen.KernelIdeal
import proofs.«163661_j61521111547944_1_alg».proof.Proof.Gen.ReferenceIdeal
import proofs.«163661_j61521111547944_1_alg».proof.Proof.Gen.Pre_finite_inputs
import proofs.«163661_j61521111547944_1_alg».proof.Proof.Gen.ReferenceIdeal.Run
import proofs.«163661_j61521111547944_1_alg».proof.Proof.Gen.ReferenceIdeal.Read
import proofs.«163661_j61521111547944_1_alg».proof.Proof.K.Launch
import proofs.«163661_j61521111547944_1_alg».proof.Proof.KI.Launch
import proofs.«163661_j61521111547944_1_alg».proof.Proof.KI.Value
import proofs.«163661_j61521111547944_1_alg».proof.Proof.RefValue
import proofs.«163661_j61521111547944_1_alg».proof.Proof.Algebra
import Idealize.ShloMosaic.Adequacy
import Idealize.ShloMosaic.Init

noncomputable section

namespace Cert.Proof

open Idealize.ShloMosaic Idealize.ShloMosaic.TcCoe Idealize.SL.Sem

/-- The kernel's program at the word-level instance runs to the end and leaves its arguments unchanged. -/
theorem frame_k : Cert.frame_Kernel := fun m ρ _ =>
  (θ_run Cert.Kernel.defs _ _).mono (fun _ h c => (h c).2) (Cert.Kernel.Hand.run_main (F := Bits) m ρ)

/-- The same program read at the ideal instance. -/
theorem frame_ki : Cert.frame_KernelIdeal := fun m ρ _ =>
  (θ_run Cert.KernelIdeal.defs _ _).mono (fun _ h c => (h c).2) (Cert.KernelIdeal.Hand.run_main (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the quarter of the sum of the terms over all pairs of the arguments' points: the
    kernel's program by its run and the reading of its accumulated tiles, the reference by its run read stage by stage
    and the algebra that joins the two arrangements. -/
theorem algebraic : Cert.algebraic_KernelIdeal_ReferenceIdeal := by
  intro m ρ m' ρ' _ hagree
  refine ⟨fun c => fun _ => PairLoss.total (Cert.KernelIdeal.HandValue.P m c) (Cert.KernelIdeal.HandValue.Q m c), ?_, ?_⟩
  · exact (θ_run Cert.KernelIdeal.defs _ _).mono
      (fun _ h c => ⟨(h c).1.trans (funext fun i => Cert.KernelIdeal.HandValue.kernel_value m c i), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v48_eq, (hagree c).1, (hagree c).2]
    funext i
    exact (PairLoss.ref_value _ _ i).trans (PairLoss.refForm_eq_total _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
